-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x16384 : Shape := ⟨2, ![16384, 16384]⟩
abbrev S16384x1 : Shape := ⟨2, ![16384, 1]⟩
abbrev S128x64 : Shape := ⟨2, ![128, 64]⟩
abbrev S64 : Shape := ⟨1, ![64]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S16384x1 : S_.BroadcastsInDim S16384x1 (![] : Fin 0 → Fin S16384x1.rank)
  reducesTo_S16384x1_S_d0_1 : S16384x1.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S16384x128 .f32) (main_arg1 : FVec F S16384x16384 .f32) (main_arg2 : FVec F S16384x1 .f32) (main_arg3 : FVec F S128x64 .f32) (main_arg4 : FVec F S64 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S16384x1 .f32 := Host.absf main_arg2
  let main_cst_2 : FVec F S_ .f32 := constant S_ .f32 0x7F800000#32
  let main_v10 : FVec F S16384x1 .f32 := broadcastInDim S16384x1 ![] bcast_S_S16384x1 main_cst_2
  let main_v11 : IVec S16384x1 1 := cmpf .olt main_v9 main_v10
  let main_c_3 : IVec S_ 1 := constantI S_ 1 1#1
  let main_v12 : IVec S_ 1 := (fun x v => Host.reduce IntOp.andi x v reducesTo_S16384x1_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S16384x128 : Shape := ⟨2, ![16384, 128]⟩
abbrev S16384x16384 : Shape := ⟨2, ![16384, 16384]⟩
abbrev S16384x1 : Shape := ⟨2, ![16384, 1]⟩
abbrev S128x64 : Shape := ⟨2, ![128, 64]⟩
abbrev S64 : Shape := ⟨1, ![64]⟩
abbrev S16384x64 : Shape := ⟨2, ![16384, 64]⟩
abbrev S2048x128 : Shape := ⟨2, ![2048, 128]⟩
abbrev S2048x64 : Shape := ⟨2, ![2048, 64]⟩
abbrev S1x64 : Shape := ⟨2, ![1, 64]⟩
abbrev S2048x1024 : Shape := ⟨2, ![2048, 1024]⟩
abbrev S2048x1 : Shape := ⟨2, ![2048, 1]⟩
abbrev S1024x64 : Shape := ⟨2, ![1024, 64]⟩

abbrev nBuf : Space → Nat
  | .hbm => 8
  | .vmem => 14
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S16384x1, .f32⟩
  | .hbm, ⟨3, _⟩ => ⟨S128x64, .f32⟩
  | .hbm, ⟨4, _⟩ => ⟨S64, .f32⟩
  | .hbm, ⟨5, _⟩ => ⟨S16384x64, .f32⟩
  | .hbm, ⟨6, _⟩ => ⟨S1x64, .f32⟩
  | .hbm, ⟨7, _⟩ => ⟨S16384x64, .f32⟩
  | .local _ .vmem, ⟨0, _⟩ => ⟨S2048x128, .f32⟩
  | .local _ .vmem, ⟨1, _⟩ => ⟨S2048x128, .f32⟩
  | .local _ .vmem, ⟨2, _⟩ => ⟨S128x64, .f32⟩
  | .local _ .vmem, ⟨3, _⟩ => ⟨S2048x64, .f32⟩
  | .local _ .vmem, ⟨4, _⟩ => ⟨S2048x64, .f32⟩
  | .local _ .vmem, ⟨5, _⟩ => ⟨S2048x1024, .f32⟩
  | .local _ .vmem, ⟨6, _⟩ => ⟨S2048x1024, .f32⟩
  | .local _ .vmem, ⟨7, _⟩ => ⟨S16384x64, .f32⟩
  | .local _ .vmem, ⟨8, _⟩ => ⟨S2048x1, .f32⟩
  | .local _ .vmem, ⟨9, _⟩ => ⟨S2048x1, .f32⟩
  | .local _ .vmem, ⟨10, _⟩ => ⟨S1x64, .f32⟩
  | .local _ .vmem, ⟨11, _⟩ => ⟨S2048x64, .f32⟩
  | .local _ .vmem, ⟨12, _⟩ => ⟨S2048x64, .f32⟩
  | .local _ .vmem, ⟨13, _⟩ => ⟨S2048x64, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 16], ![false, false]⟩

def k1_mult1 (i : grid1.Coords) : BitVec 32 :=
  let arg1 : BitVec 32 := BitVec.ofNat 32 (i 1).val
  let c1024_i32 : BitVec 32 := 1024#32
  let v5 : BitVec 32 := Scalar.muli arg1 c1024_i32
  v5
def k1_off1 (i : grid1.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c15_i32 : BitVec 32 := 15#32
  let v17 : BitVec 1 := Scalar.cmpi .eq arg1 c15_i32
  let v18 : BitVec 32 := Scalar.extui v17
  let c0_i32_7 : BitVec 32 := 0#32
  let v19 : BitVec 1 := Scalar.cmpi .ne v18 c0_i32_7
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16384x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S2048x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2048x64_S2048x64_0_0 : ∀ a, (![0, 0] : Fin 2 → Nat) a + S2048x64.size a ≤ S2048x64.size a
  h_S2048x64 : 0 < S2048x64.numel
  shapeCasts_S64_S1x64 : S64.ShapeCasts S1x64
  shapeCasts_S2048x64_S2048x64 : S2048x64.ShapeCasts S2048x64
  inb_S2048x1024_S2048x1024_0_0 : ∀ a, (![0, 0] : Fin 2 → Nat) a + S2048x1024.size a ≤ S2048x1024.size a
  h_S2048x1024 : 0 < S2048x1024.numel
  h_S1024x64 : 0 < S1024x64.numel
  shapeCasts_S1024x64_S1024x64 : S1024x64.ShapeCasts S1024x64
  inb_S2048x1_S2048x1_0_0 : ∀ a, (![0, 0] : Fin 2 → Nat) a + S2048x1.size a ≤ S2048x1.size a
  h_S2048x1 : 0 < S2048x1.numel
  broadcasts_S2048x1_S2048x64 : S2048x1.Broadcasts S2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  dot_S2048x128_S128x64_S2048x64_1_0_0_1_n_n_wf : DotDims.WF S2048x128 S128x64 S2048x64 [1] [0] [0] [1] [] []
  dot_S2048x1024_S1024x64_S2048x64_1_0_0_1_n_n_wf : DotDims.WF S2048x1024 S1024x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .f32 = 32 ∨ (Rect.block (s := S16384x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S16384x64.size a
  hwx0_2 : ∀ i : grid0.Coords, EltTy.bits .f32 = 32 ∨ (Rect.block (s := S16384x64) S2048x64.size (cc0_transform_2 i) (hinb0_2 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x64.size a ≤ S16384x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S16384x16384.size a
  hwx1_0 : ∀ i : grid1.Coords, EltTy.bits .f32 = 32 ∨ (Rect.block (s := S16384x16384) S2048x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x64.size a ≤ S16384x64.size a
  hwx1_1 : ∀ i : grid1.Coords, EltTy.bits .f32 = 32 ∨ (Rect.block (s := S16384x64) S16384x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S16384x1.size a
  hwx1_2 : ∀ i : grid1.Coords, EltTy.bits .f32 = 32 ∨ (Rect.block (s := S16384x1) S2048x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x64.size a ≤ S16384x64.size a
  hwx1_4 : ∀ i : grid1.Coords, EltTy.bits .f32 = 32 ∨ (Rect.block (s := S16384x64) S2048x64.size (cc1_transform_4 i) (hinb1_4 i)).WholeWords (EltTy.packing .f32)

variable [Facts₀]

def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S16384x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S2048x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S16384x128 : Shape := ⟨2, ![16384, 128]⟩
abbrev S16384x16384 : Shape := ⟨2, ![16384, 16384]⟩
abbrev S16384x1 : Shape := ⟨2, ![16384, 1]⟩
abbrev S128x64 : Shape := ⟨2, ![128, 64]⟩
abbrev S64 : Shape := ⟨1, ![64]⟩
abbrev S16384x64 : Shape := ⟨2, ![16384, 64]⟩
abbrev S1x64 : Shape := ⟨2, ![1, 64]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S16384x1, .f32⟩
  | .hbm, ⟨3, _⟩ => ⟨S128x64, .f32⟩
  | .hbm, ⟨4, _⟩ => ⟨S64, .f32⟩
  | .hbm, ⟨5, _⟩ => ⟨S16384x64, .f32⟩
  | .hbm, ⟨6, _⟩ => ⟨S16384x64, .f32⟩
  | .hbm, ⟨7, _⟩ => ⟨S16384x64, .f32⟩
  | .hbm, ⟨8, _⟩ => ⟨S16384x64, .f32⟩
  | .hbm, ⟨9, _⟩ => ⟨S1x64, .f32⟩
  | .hbm, ⟨10, _⟩ => ⟨S16384x64, .f32⟩
  | .hbm, ⟨11, _⟩ => ⟨S16384x64, .f32⟩
  | .hbm, ⟨12, _⟩ => ⟨S_, .f32⟩
  | .hbm, ⟨13, _⟩ => ⟨S16384x64, .f32⟩
  | .hbm, ⟨14, _⟩ => ⟨S16384x64, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_v7 : Ref sig .tc := ⟨.hbm, 14, rfl⟩

abbrev nD : Nat := 1
abbrev τ : Topo := Topo.v7x

variable {F : FTy → Type} [FloatOps F]

class Facts₀ : Prop where
  bcast_S16384x1_S16384x64_0_1 : S16384x1.BroadcastsInDim S16384x64 (![0, 1] : Fin 2 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  dot_S16384x128_S128x64_S16384x64_1_0_0_1_n_n_wf : DotDims.WF S16384x128 S128x64 S16384x64 [1] [0] [0] [1] [] []
  dot_S16384x16384_S16384x64_S16384x64_1_0_0_1_n_n_wf : DotDims.WF S16384x16384 S16384x64 S16384x64 [1] [0] [0] [1] [] []

variable [Facts₀]

def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf

class Facts : Prop extends Facts₀ where

variable [Facts]
-- ==== Proof.BitsSupportBody.lean ====
/-
  The support call: the first kernel region of the graph-convolution program, at the contents `V` its region
  finds in the TensorCore's buffers.

  Its grid is 8 row tiles. At each point the body multiplies the point's 2048×128 block of the feature matrix by
  the whole 128×64 weight matrix (resident: fetched once) and stores the 2048×64 product as the point's block of
  the support matrix. It keeps nothing between points.
-/
import proofs.«106753_j66322884985284_2_alg».proof.Proof.Gen.Kernel.Launch
import proofs.«106753_j66322884985284_2_alg».proof.Proof.Gen.Kernel.Skeleton
import proofs.«106753_j66322884985284_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, when the body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rX0 : Rect S2048x128 := Rect.unit (s := S2048x128) ![0, 0] S2048x128.size inb_S2048x128_S2048x128_0_0
abbrev rW0 : Rect S128x64 := Rect.unit (s := S128x64) ![0, 0] S128x64.size inb_S128x64_S128x64_0_0
abbrev rO0 : Rect S2048x64 := Rect.unit (s := S2048x64) ![0, 0] S2048x64.size inb_S2048x64_S2048x64_0_0

theorem hz : (![0, 0] : Fin 2 → Nat) = fun _ => 0 := funext fun a => by fin_cases a <;> rfl

/-- The output block the body stores: the product of the loaded feature block and the loaded weight matrix. -/
def supBlk (x0 : Vec F S2048x128 .f32) (x1 : Vec F S128x64 .f32) : Vec F S2048x64 .f32 := k0_pay1 x0 x1

/-- The one store is the whole output buffer. -/
theorem cover0_2 (p0 : Vec F S2048x64 .f32) (y : S2048x64.Idx) :
    ∃ pc ∈ ([⟨rO0, p0⟩] : List (View.Piece (Elt F) S2048x64 .f32)), y ∈ pc.1.set :=
  View.cover_of_tiled [⟨rO0, p0⟩] S2048x64.size (by rfl) y

set_option maxHeartbeats 1000000 in
/-- The body on whole staging memrefs — the inputs' at contents `x0`, `x1`, the output's at anything — runs to the
    continuation holding the inputs' as they were and the output's at `supBlk x0 x1`. -/
theorem sound_support (c : Dev nD) (E : Set ℕ) (i : grid0.Coords) (arg1 : Memref sig .tc .vmem S2048x128 .f32) (harg1 : arg1.IsWhole)
    (arg2 : Memref sig .tc .vmem S128x64 .f32) (harg2 : arg2.IsWhole) (arg3 : Memref sig .tc .vmem S2048x64 .f32) (harg3 : arg3.IsWhole)
    (x0 : Vec F S2048x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (supBlk x0 x1)) -∗ K ⟨⟩))
      ⊢ wp frame (wpE (defs₀ (F := F)) Variants.none c none) E (cc0__support_kernel i arg1 harg1 arg2 harg2 arg3 harg3) K := by
  simp only [cc0__support_kernel_eq_skeleton]; unfold cc0__support_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover0_2 _)).trans ?_
  rw [View.canon_unit_zero hz]
  simp only [View.readAt_eq_ld, View.ld_unit_zero (S := S2048x128) hz, View.ld_unit_zero (S := S128x64) hz]
  rfl

/-- The proof data of the support call on core `c`: the arrays as the region finds them; after the body each
    input's buffer at its block and the output's at the product of the two blocks; the launch's invariant
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => supBlk (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = supBlk (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_support c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the support call, at every point. -/
theorem body_obligation0 (c : Dev nD) : BodyObligation (dat0 (F := F) V c) (defs₀ (F := F)) Variants.none () Set.univ := fun t => by
  rw [bigSep_W0, bigSep_W0]
  exact sound_body0 V c t

end Cert.Kernel.Gcn

end
-- ==== Proof.BitsAggregateDefs.lean ====
/-
  The aggregation call: the second kernel region of the graph-convolution program, at the contents `V` its
  region finds in the TensorCore's buffers.

  Its grid is 8 row tiles by 16 reduction tiles (point `t` is row tile `t / 16`, reduction tile `t % 16`). At
  every point the body adds, into a 2048×64 accumulator it keeps in scratch memory between points, the product of
  the point's 2048×1024 block of the adjacency matrix with rows `1024·(t % 16) … 1024·(t % 16) + 1023` of the
  resident 16384×64 support matrix; at a row tile's first point the accumulator starts from zero, and at its
  last point the output block `max (degree · accumulator + bias) 0` is stored.
-/
import proofs.«106753_j66322884985284_2_alg».proof.Proof.Gen.Kernel.Launch
import proofs.«106753_j66322884985284_2_alg».proof.Proof.Gen.Kernel.Skeleton
import proofs.«106753_j66322884985284_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows of the resident support matrix the point multiplies by: 1024 rows from `1024 · (reduction tile)`. -/
abbrev rSup (i : grid1.Coords) : Rect S16384x64 := Rect.unit (s := S16384x64) (k1_off1 i) S1024x64.size (k1_off1_inb i)

/-- One point's update of the accumulator: the previous contents plus the point's adjacency block times its
    1024 rows of the support matrix. -/
def accStep (c : Dev nD) (t : Fin cfg1.N) (prev : Vec F S2048x64 .f32) : Vec F S2048x64 .f32 :=
  k1_pay2 (iblk1 V c 0 t) (View.ld (iblk1 V c 1 t) (rSup (grid1.coords t))) prev

/-- THE ACCUMULATOR after point `n`: restarted from the zero splat at the first point of each row tile
    (`n % 16 = 0`), else continued from what point `n - 1` left. -/
def accAt (c : Dev nD) : (n : ℕ) → n < cfg1.N → Vec F S2048x64 .f32
  | 0, hn => accStep V c ⟨0, hn⟩ (k1_pay1 (F := F))
  | n + 1, hn =>
    if (n + 1) % 16 = 0 then accStep V c ⟨n + 1, hn⟩ (k1_pay1 (F := F))
    else accStep V c ⟨n + 1, hn⟩ (accAt c n (Nat.lt_of_succ_lt hn))

/-- What the body stores into the output block at a row tile's last point: degree times the accumulator, plus
    the bias row, clamped below at zero. -/
def outAt (c : Dev nD) (t : Fin cfg1.N) : Vec F S2048x64 .f32 :=
  k1_pay3 (iblk1 V c 2 t) (accAt V c t.val t.isLt) (iblk1 V c 3 t)

theorem accAt_reset (c : Dev nD) (t : Fin cfg1.N) (h : t.val % 16 = 0) :
    accAt V c t.val t.isLt = accStep V c t (k1_pay1 (F := F)) := by
  obtain ⟨n, hn⟩ := t
  cases n with
  | zero => rfl
  | succ n => exact (if_pos h)

theorem accAt_cont (c : Dev nD) (t : Fin cfg1.N) (h : ¬t.val % 16 = 0) :
    accAt V c t.val t.isLt = accStep V c t (accAt V c (t.val - 1) (Nat.lt_of_le_of_lt (Nat.sub_le _ _) t.isLt)) := by
  obtain ⟨n, hn⟩ := t
  cases n with
  | zero => exact absurd (Nat.zero_mod _) h
  | succ n => exact (if_neg h)

/-- The scratch accumulator as a memref, and the other scoped buffers that are no staging buffer of this call. -/
abbrev accM : Memref sig .tc .vmem S2048x64 .f32 := Memref.whole cc1_scratch0

/-- The first call's five staging buffers, each whole at some contents: they ride through this region untouched. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The region's invariant before position `n`: before the first point whatever the launch hands the kernel
    (every scoped buffer outside the staging at some contents, the generator register at some state); after
    point `n - 1` the same with the accumulator at `accAt` of that point. -/
def PhiAcc (c : Dev nD) : (n : ℕ) → n ≤ cfg1.N → sProp 𝕄
  | 0, _ => Pipeline.ΦA spec1 c
  | n + 1, hn => iprop(otherScoped (F := F) c ∗ owns (c : Thread nD τ) accM fullShare (accAt V c n hn) ∗ (∃ r, prngReg c r))

/-- The proof data of the aggregation call on core `c`: the arrays as the region finds them; after the body
    each input's buffer at its block and the output's at `outAt` (consulted only where the block is written
    back: a row tile's last point); the invariant `PhiAcc`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt V c t
  Φ t := PhiAcc V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt V c t := by dsimp only [dat1]

end Cert.Kernel.Gcn

end
-- ==== Proof.BitsAggregateBody.lean ====
/-
  The aggregation call's body obligation: the second kernel region of the graph-convolution program, at the
  contents `V` its region finds in the TensorCore's buffers.

  First the body is run on arbitrary whole buffers in each of the three cases its two conditionals on the
  reduction coordinate leave: the first point of a row tile (the accumulator is reset to zero, then updated), a
  middle point (updated only), and the last point (updated, then the output block `max (degree · accumulator + bias) 0`
  is computed and stored). Then, at a generic grid point, the closed forms of the two conditions select the case,
  the invariant hands over the accumulator at what the point before left and takes it back at this point's
  contents, and away from a row tile's last point the output's buffer goes back as it came.
-/
import proofs.«106753_j66322884985284_2_alg».proof.Proof.BitsAggregateDefs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions, over the grid -/

/-- The first conditional's condition: the reduction coordinate is zero. -/
abbrev condFirst (i : grid1.Coords) : Prop :=
  (Scalar.cmpi .ne (Scalar.extui (Scalar.cmpi .eq (BitVec.ofNat 32 (i 1).val) 0#32)) 0#32) = 1#1
/-- It holds at the points ≡ 0 (mod 16). -/
theorem hcondFirst : ∀ t : Fin cfg1.N, condFirst (grid1.coords t) ↔ t.val % 16 = 0 :=
  (by decide +kernel : ∀ t : Fin grid1.N, condFirst (grid1.coords t) ↔ t.val % 16 = 0)

/-- The second conditional's condition: the reduction coordinate is fifteen. -/
abbrev condLast (i : grid1.Coords) : Prop := k1_cond2 i = 1#1
/-- It holds at the points ≡ 15 (mod 16). -/
theorem hcondLast : ∀ t : Fin cfg1.N, condLast (grid1.coords t) ↔ t.val % 16 = 15 :=
  (by decide +kernel : ∀ t : Fin grid1.N, condLast (grid1.coords t) ↔ t.val % 16 = 15)

/-- The four inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- The output is idle away from a row tile's last point, and not written back there; -/
theorem idleAt1_4 : ∀ t : Fin cfg1.N, ¬condLast (grid1.coords t) → cfg1.idle 4 (grid1.coords t) = true := by decide +kernel
theorem noFlush1_4 : ∀ t : Fin cfg1.N, ¬condLast (grid1.coords t) → (cfg1.win 4).flush t = false := by decide +kernel
/-- and live at it. -/
theorem liveAt1_4 : ∀ t : Fin cfg1.N, condLast (grid1.coords t) → cfg1.idle 4 (grid1.coords t) = false := by decide +kernel

/-! ## Whole-buffer rectangles -/

theorem hzz : (![0, 0] : Fin 2 → Nat) = fun _ => 0 := funext fun a => by fin_cases a <;> rfl

/-- The whole accumulator (and the whole output block), as the body's loads and stores address it. -/
abbrev rAcc : Rect S2048x64 := Rect.unit (s := S2048x64) ![0, 0] S2048x64.size inb_S2048x64_S2048x64_0_0

/-- A list of stores whose last is of the whole buffer covers it. -/
theorem coverAcc (p0 : Vec F S2048x64 .f32) (L : List (View.Piece (Elt F) S2048x64 .f32)) (y : S2048x64.Idx) :
    ∃ pc ∈ ((⟨rAcc, p0⟩ : View.Piece (Elt F) S2048x64 .f32) :: L), y ∈ pc.1.set :=
  ⟨⟨rAcc, p0⟩, List.mem_cons_self .., View.mem_set_unit_zero hzz inb_S2048x64_S2048x64_0_0 y⟩

set_option maxHeartbeats 1000000 in
/-- A middle point of a row tile: the accumulator goes from `prev` to `prev` plus the product; the output block's
    buffer is handed back as it was. -/
theorem run_mid (c : Dev nD) (E : Set ℕ) (i : grid1.Coords)
    (arg2 : Memref sig .tc .vmem S2048x1024 .f32) (harg2 : arg2.IsWhole) (arg3 : Memref sig .tc .vmem S16384x64 .f32) (harg3 : arg3.IsWhole)
    (arg4 : Memref sig .tc .vmem S2048x1 .f32) (harg4 : arg4.IsWhole) (arg5 : Memref sig .tc .vmem S1x64 .f32) (harg5 : arg5.IsWhole)
    (arg6 : Memref sig .tc .vmem S2048x64 .f32) (harg6 : arg6.IsWhole) (arg7 : Memref sig .tc .vmem S2048x64 .f32) (harg7 : arg7.IsWhole)
    (hc0 : ¬condFirst i) (hc1 : ¬condLast i)
    (x0 : Vec F S2048x1024 .f32) (x1 : Vec F S16384x64 .f32) (x2 : Vec F S2048x1 .f32) (x3 : Vec F S1x64 .f32)
    (xi : Vec F S2048x64 .f32) (prev : Vec F S2048x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi ∗ owns (c : Thread nD τ) arg7 fullShare prev
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi
            ∗ owns (c : Thread nD τ) arg7 fullShare (k1_pay2 x0 (View.ld x1 (rSup i)) prev)) -∗ K ⟨⟩))
      ⊢ wp frame (wpE (defs₀ (F := F)) Variants.none c none) E (cc1__main_kernel i arg2 harg2 arg3 harg3 arg4 harg4 arg5 harg5 arg6 harg6 arg7 harg7) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (coverAcc _ _)).trans ?_
  rw [View.canon_unit_zero hzz]
  simp only [View.readAt_eq_ld, View.ld_unit_zero (S := S2048x1024) hzz, View.ld_unit_zero (S := S2048x64) hzz]

set_option maxHeartbeats 1000000 in
/-- The first point of a row tile: whatever the accumulator held, it ends at zero plus the product; the output
    block's buffer is handed back as it was. -/
theorem run_first (c : Dev nD) (E : Set ℕ) (i : grid1.Coords)
    (arg2 : Memref sig .tc .vmem S2048x1024 .f32) (harg2 : arg2.IsWhole) (arg3 : Memref sig .tc .vmem S16384x64 .f32) (harg3 : arg3.IsWhole)
    (arg4 : Memref sig .tc .vmem S2048x1 .f32) (harg4 : arg4.IsWhole) (arg5 : Memref sig .tc .vmem S1x64 .f32) (harg5 : arg5.IsWhole)
    (arg6 : Memref sig .tc .vmem S2048x64 .f32) (harg6 : arg6.IsWhole) (arg7 : Memref sig .tc .vmem S2048x64 .f32) (harg7 : arg7.IsWhole)
    (hc0 : condFirst i) (hc1 : ¬condLast i)
    (x0 : Vec F S2048x1024 .f32) (x1 : Vec F S16384x64 .f32) (x2 : Vec F S2048x1 .f32) (x3 : Vec F S1x64 .f32)
    (xi : Vec F S2048x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi
            ∗ owns (c : Thread nD τ) arg7 fullShare (k1_pay2 x0 (View.ld x1 (rSup i)) (k1_pay1 (F := F)))) -∗ K ⟨⟩))
      ⊢ wp frame (wpE (defs₀ (F := F)) Variants.none c none) E (cc1__main_kernel i arg2 harg2 arg3 harg3 arg4 harg4 arg5 harg5 arg6 harg6 arg7 harg7) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (coverAcc _ _)).trans ?_
  rw [View.canon_cons_unit_zero (S := S2048x64) hzz]
  sl_unfold_words
  simp only [View.readAt_eq_ld, View.readCov_unit_zero (S := S2048x64) _ hzz, View.ld_unit_zero (S := S2048x1024) hzz, View.ld_unit_zero (S := S2048x64) hzz]
  rfl

set_option maxHeartbeats 1000000 in
/-- The last point of a row tile: the accumulator is updated as at a middle point, and the output block's buffer,
    whatever it held, ends at the degree column times the updated accumulator, plus the bias row, clamped at zero. -/
theorem run_last (c : Dev nD) (E : Set ℕ) (i : grid1.Coords)
    (arg2 : Memref sig .tc .vmem S2048x1024 .f32) (harg2 : arg2.IsWhole) (arg3 : Memref sig .tc .vmem S16384x64 .f32) (harg3 : arg3.IsWhole)
    (arg4 : Memref sig .tc .vmem S2048x1 .f32) (harg4 : arg4.IsWhole) (arg5 : Memref sig .tc .vmem S1x64 .f32) (harg5 : arg5.IsWhole)
    (arg6 : Memref sig .tc .vmem S2048x64 .f32) (harg6 : arg6.IsWhole) (arg7 : Memref sig .tc .vmem S2048x64 .f32) (harg7 : arg7.IsWhole)
    (hc0 : ¬condFirst i) (hc1 : condLast i)
    (x0 : Vec F S2048x1024 .f32) (x1 : Vec F S16384x64 .f32) (x2 : Vec F S2048x1 .f32) (x3 : Vec F S1x64 .f32)
    (prev : Vec F S2048x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare prev
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k1_pay3 x2 (k1_pay2 x0 (View.ld x1 (rSup i)) prev) x3)
            ∗ owns (c : Thread nD τ) arg7 fullShare (k1_pay2 x0 (View.ld x1 (rSup i)) prev)) -∗ K ⟨⟩))
      ⊢ wp frame (wpE (defs₀ (F := F)) Variants.none c none) E (cc1__main_kernel i arg2 harg2 arg3 harg3 arg4 harg4 arg5 harg5 arg6 harg6 arg7 harg7) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (coverAcc _ _)).trans ?_
    rw [View.canon_unit_zero hzz]
    sl_unfold_words
    simp only [View.readAt_eq_ld, View.readCov_unit_zero (S := S2048x64) _ hzz, View.ld_unit_zero (S := S2048x1024) hzz, View.ld_unit_zero (S := S2048x64) hzz, View.ld_unit_zero (S := S2048x1) hzz, View.ld_unit_zero (S := S1x64) hzz]
    rfl
  iexists _; isplitr
  swap; · iexact H5
  ipureintro
  refine (View.read_writes_eq_canon _ _ _ (coverAcc _ _)).trans ?_
  rw [View.canon_unit_zero hzz]
  simp only [View.readAt_eq_ld, View.ld_unit_zero (S := S2048x1024) hzz, View.ld_unit_zero (S := S2048x64) hzz]

/-! ## The invariant, unfolded -/

/-- After point `n` (before point `n + 1`): the accumulator at that point's contents. -/
theorem PhiAcc_succ (c : Dev nD) (n : ℕ) (hn : n < cfg1.N) :
    PhiAcc V c (n + 1) hn = iprop(otherScoped (F := F) c ∗ owns (c : Thread nD τ) accM fullShare (accAt V c n hn) ∗ (∃ r, prngReg c r)) := rfl

/-- Before a point that is not the first: the accumulator at what the point before left. -/
theorem PhiAcc_pos (c : Dev nD) (n : ℕ) (h : n ≤ cfg1.N) (hz : n ≠ 0) :
    PhiAcc V c n h = iprop(otherScoped (F := F) c ∗ owns (c : Thread nD τ) accM fullShare (accAt V c (n - 1) (by omega)) ∗ (∃ r, prngReg c r)) := by
  cases n with
  | zero => exact absurd rfl hz
  | succ n => rfl

theorem PhiAcc_zero (c : Dev nD) (n : ℕ) (h : n ≤ cfg1.N) (hz : n = 0) : PhiAcc V c n h = Pipeline.ΦA spec1 c := by
  subst hz; rfl

/-- The invariant at a point's start, restated at `t.val`. -/
theorem Phi_castSucc1 (c : Dev nD) (t : Fin cfg1.N) :
    (dat1 V c).Φ t.castSucc = PhiAcc V c t.val (Nat.le_of_lt t.isLt) := by
  dsimp only [dat1]; simp only [Fin.coe_castSucc]

/-- What the launch hands the region, with the accumulator's buffer singled out as a memref owned at some contents; -/
theorem PhiA1_elim (c : Dev nD) :
    (Pipeline.ΦA spec1 c : sProp 𝕄) ⊢ iprop(otherScoped (F := F) c ∗ (∃ d, owns (c : Thread nD τ) accM fullShare d) ∗ (∃ r, prngReg c r)) := by
  unfold Pipeline.ΦA; rw [scopedRest1_eq]; unfold otherScoped; simp only [accM, owns_whole]
  iintro ⟨⟨A, B, C, D, E, S⟩, R⟩
  isplitl [A B C D E]
  · isplitl [A]; · iexact A
    isplitl [B]; · iexact B
    isplitl [C]; · iexact C
    isplitl [D]; · iexact D
    iexact E
  isplitl [S]; · iexact S
  iexact R

/-- and back. -/
theorem PhiA1_intro (c : Dev nD) :
    iprop(otherScoped (F := F) c ∗ (∃ d, owns (c : Thread nD τ) accM fullShare d) ∗ (∃ r, prngReg c r)) ⊢ (Pipeline.ΦA spec1 c : sProp 𝕄) := by
  unfold Pipeline.ΦA; rw [scopedRest1_eq]; unfold otherScoped; simp only [accM, owns_whole]
  iintro ⟨⟨A, B, C, D, E⟩, S, R⟩
  isplitl [A B C D E S]
  · isplitl [A]; · iexact A
    isplitl [B]; · iexact B
    isplitl [C]; · iexact C
    isplitl [D]; · iexact D
    isplitl [E]; · iexact E
    iexact S
  iexact R

/-! ## The inputs' staging buffers -/

/-- Each input's current staging buffer holds its block at every point, fetched there or not: the body leaves the
    block in place, and an unfetched window's block index has not moved. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4000000 in
/-- The body at any point. The inputs' buffers hold their blocks; the closed forms of the two conditions say which
    of the three cases the point is in; the invariant hands the body the accumulator at what the point before left
    (at anything, at the grid's first point) and takes it back at this point's contents; away from a row tile's last
    point the output's buffer goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiAcc V c (t.val + 1) t.isLt from rfl, PhiAcc_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  have hN : t.val < 128 := lt_of_lt_of_eq t.isLt (show cfg1.N = 128 from N_1)
  rw [Phi_castSucc1 V c t]
  by_cases h0 : t.val % 16 = 0
  · have h1 : ¬t.val % 16 = 15 := by omega
    rw [Dat.leavesExact_idle (dat1 V c) 4 t (idleAt1_4 t (fun h => h1 ((hcondLast t).mp h))) (noFlush1_4 t (fun h => h1 ((hcondLast t).mp h)))]
    rw [accAt_reset V c t h0]; unfold accStep
    by_cases hz : t.val = 0
    · rw [PhiAcc_zero V c _ _ hz]
      iintro ⟨HP, Ho, ⟨%d0, H0⟩, ⟨%d1, H1⟩, ⟨%d2, H2⟩, ⟨%d3, H3⟩, ⟨%d4, H4⟩⟩
      ihave HP' := (PhiA1_elim c) $$ HP
      icases HP' with ⟨HO, HS, Hg⟩
      iapply (run_first c Set.univ (grid1.coords t) _ _ _ _ _ _ _ _ _ _ _ _ ((hcondFirst t).mpr h0) (fun h => h1 ((hcondLast t).mp h))
        (iblk1 V c 0 t) (iblk1 V c 1 t) (iblk1 V c 2 t) (iblk1 V c 3 t) ((dat1 V c).before 4 t d4) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HO HS Hg]
      · isplitl [HO]; · iexact HO
        isplitl [HS]; · iexact HS
        iexact Hg
      isplitl [Ho]; · iexact Ho
      isplitl [H0]; · iexact H0
      isplitl [H1]; · iexact H1
      isplitl [H2]; · iexact H2
      isplitl [H3]; · iexact H3
      iexists d4; iexact H4
    · rw [PhiAcc_pos V c _ _ hz]
      iintro ⟨⟨HO, HS, Hg⟩, Ho, ⟨%d0, H0⟩, ⟨%d1, H1⟩, ⟨%d2, H2⟩, ⟨%d3, H3⟩, ⟨%d4, H4⟩⟩
      iapply (run_first c Set.univ (grid1.coords t) _ _ _ _ _ _ _ _ _ _ _ _ ((hcondFirst t).mpr h0) (fun h => h1 ((hcondLast t).mp h))
        (iblk1 V c 0 t) (iblk1 V c 1 t) (iblk1 V c 2 t) (iblk1 V c 3 t) ((dat1 V c).before 4 t d4) _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HO HS Hg]
      · isplitl [HO]; · iexact HO
        isplitl [HS]; · iexact HS
        iexact Hg
      isplitl [Ho]; · iexact Ho
      isplitl [H0]; · iexact H0
      isplitl [H1]; · iexact H1
      isplitl [H2]; · iexact H2
      isplitl [H3]; · iexact H3
      iexists d4; iexact H4
  · have hz : t.val ≠ 0 := fun e => h0 (by rw [e])
    rw [PhiAcc_pos V c _ _ hz, accAt_cont V c t h0]; unfold accStep
    by_cases h1 : t.val % 16 = 15
    · rw [show (dat1 V c).leavesExact 4 t = owns (c : Thread nD τ) (st1_4 t) fullShare ((dat1 V c).after 4 t) from by
        unfold Dat.leavesExact; rw [liveAt1_4 t ((hcondLast t).mpr h1)], after1_4]
      unfold outAt; rw [accAt_cont V c t h0]; unfold accStep
      iintro ⟨⟨HO, HS, Hg⟩, Ho, ⟨%d0, H0⟩, ⟨%d1, H1⟩, ⟨%d2, H2⟩, ⟨%d3, H3⟩, ⟨%d4, H4⟩⟩
      iapply (run_last c Set.univ (grid1.coords t) _ _ _ _ _ _ _ _ _ _ _ _ (fun h => h0 ((hcondFirst t).mp h)) ((hcondLast t).mpr h1)
        (iblk1 V c 0 t) (iblk1 V c 1 t) (iblk1 V c 2 t) (iblk1 V c 3 t) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HO HS Hg]
      · isplitl [HO]; · iexact HO
        isplitl [HS]; · iexact HS
        iexact Hg
      isplitl [Ho]; · iexact Ho
      isplitl [H0]; · iexact H0
      isplitl [H1]; · iexact H1
      isplitl [H2]; · iexact H2
      isplitl [H3]; · iexact H3
      iexact H4
    · rw [Dat.leavesExact_idle (dat1 V c) 4 t (idleAt1_4 t (fun h => h1 ((hcondLast t).mp h))) (noFlush1_4 t (fun h => h1 ((hcondLast t).mp h)))]
      iintro ⟨⟨HO, HS, Hg⟩, Ho, ⟨%d0, H0⟩, ⟨%d1, H1⟩, ⟨%d2, H2⟩, ⟨%d3, H3⟩, ⟨%d4, H4⟩⟩
      iapply (run_mid c Set.univ (grid1.coords t) _ _ _ _ _ _ _ _ _ _ _ _ (fun h => h0 ((hcondFirst t).mp h)) (fun h => h1 ((hcondLast t).mp h))
        (iblk1 V c 0 t) (iblk1 V c 1 t) (iblk1 V c 2 t) (iblk1 V c 3 t) ((dat1 V c).before 4 t d4)
        (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HO HS Hg]
      · isplitl [HO]; · iexact HO
        isplitl [HS]; · iexact HS
        iexact Hg
      isplitl [Ho]; · iexact Ho
      isplitl [H0]; · iexact H0
      isplitl [H1]; · iexact H1
      isplitl [H2]; · iexact H2
      isplitl [H3]; · iexact H3
      iexists d4; iexact H4

/-- The body obligation of the aggregation call, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiAcc V c 0 (Nat.zero_le _) from rfl, PhiAcc_zero V c 0 _ rfl]

/-- After the last point the invariant gives it back, the accumulator's contents forgotten. -/
theorem hout1 (c : Dev nD) : (dat1 V c).Φ (Fin.last cfg1.N) ⊢ Pipeline.ΦA spec1 c := by
  have ht : (Fin.last cfg1.N).val ≠ 0 := by rw [Fin.val_last]; have : cfg1.N = 128 := N_1; omega
  rw [show (dat1 V c).Φ (Fin.last cfg1.N) = PhiAcc V c (Fin.last cfg1.N).val (Nat.le_of_lt_succ (Fin.last cfg1.N).isLt) from rfl,
    PhiAcc_pos V c _ _ ht]
  iintro ⟨HO, HS, Hg⟩
  iapply (PhiA1_intro c)
  isplitl [HO]; · iexact HO
  isplitl [HS]; · iexists _; iexact HS
  iexact Hg

end Cert.Kernel.Gcn

end
-- ==== Proof.BitsLaunch.lean ====
/-
  The whole program as a run: the support call, the host's reshape of the bias, the aggregation call.

  The buffers' contents at each boundary are a fold from the launch memory: after the support call its arrays hold
  what its write-backs leave (only the support matrix changes); the host then writes the bias row; after the
  aggregation call its arrays hold what its write-backs leave (only the result changes). Each call is entered
  with every buffer that outlives a call at the boundary's contents, the generator register at some state and
  nothing owed, and left the same way; so every weakly fair execution from a memory with zero counters terminates
  with every such buffer at the last boundary's contents.
-/
import proofs.«106753_j66322884985284_2_alg».proof.Proof.BitsSupportBody
import proofs.«106753_j66322884985284_2_alg».proof.Proof.BitsAggregateBody

set_option maxRecDepth 16384

noncomputable section

namespace Cert.Kernel.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch (the support call's entry: no host operation comes before it). -/
abbrev W0 : Dev nD → Valuation τ sig (Elt F) := fun c b => m (c, b)
abbrev V0 : (c : Dev nD) → (b : Ref sig .tc) → Buf (Elt F) ((c : Thread nD τ).loc b) := fun c b => W0 m c b

/-- After the support call: its arrays at what its write-backs leave, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host's reshape of the bias (the aggregation call's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b

/-- After the aggregation call: its arrays at what its write-backs leave, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- The reshape writes the bias row only: every other buffer passes it unchanged. -/
theorem W2_of_ne (c : Dev nD) (b : Ref sig .tc) (hb : b ≠ main_v1) :
    W2 m c (Proc.devRef .tc b) = W1 m c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-! ## The proof data family and the thread state -/

abbrev adm : (p : Fin 2) → (pcfgs (F := F) p).Adm := fun p => (cfgs p).toPCfg_adm

/-- Each call's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0

/-- What rides beside the buffers through every segment: the generator register at some state, and nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W3 m c) ∗ ∃ r, prngReg c r)

/-! ## The calls as segments -/

/-- The launch's invariant for the aggregation call, from its parts as the region rule hands them, -/
theorem phiA1_of_parts (c : Dev nD) (P : sProp 𝕄) :
    iprop((∃ r, prngReg c r) ∗ P ∗ Pipeline.scopedRest spec1 c) ⊢ (Pipeline.ΦA spec1 c : sProp 𝕄) := by
  unfold Pipeline.ΦA
  iintro ⟨Hp, -, Hr⟩
  isplitl [Hr]; · iexact Hr
  iexact Hp

/-- and back into the parts the region rule takes at the exit. -/
theorem parts_of_phiA1 (c : Dev nD) :
    (Pipeline.ΦA spec1 c : sProp 𝕄) ⊢ iprop((∃ r, prngReg c r) ∗ emp ∗ Pipeline.scopedRest spec1 c) := by
  unfold Pipeline.ΦA
  iintro ⟨Hr, Hp⟩
  isplitl [Hp]; · iexact Hp
  isplitr; · iempintro
  iexact Hr

set_option backward.isDefEq.respectTransparency.types false in
/-- THE SUPPORT CALL: entered from every buffer at the launch contents, left at `W1`. Its arrays are split out of
    the buffers and put back at their exit contents; the generator register goes into the call's invariant and
    comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE AGGREGATION CALL: entered from every buffer at `W2`, left at `W3`. The generator register and the scoped
    buffers outside its staging (the accumulator among them) go into the call's invariant, which tracks the
    accumulator between points, and come back with the accumulator's contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA1_of_parts c _).trans (hin1 (V2 m) c)
  hout c := by
    rw [Pipeline.ownSems0_none]
    exact (hout1 (V2 m) c).trans (parts_of_phiA1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m) ]

theorem main_run (c : Dev nD) : main (F := F) c = Pipeline.Seg.run (segs m) := (main_chain c).trans (by chain_rfl)

set_option backward.isDefEq.respectTransparency.types false in
/-- THE RUN: from any memory with zero counters every weakly fair execution terminates, nothing faulting, and
    every buffer that outlives the calls ends at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## The arguments end as launched -/

theorem W3_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := (W1_arr m c 0).trans (((dat0 (V0 m) c).arrAt_in 0 rfl _).trans (A_eq0 (V0 m) c 0))
    _ = m ((c : Thread nD τ).loc main_arg0) := rfl

theorem W3_arg1 (c : Dev nD) : W3 m c (Proc.devRef .tc main_arg1) = m ((c : Thread nD τ).loc main_arg1) :=
  calc W3 m c (Proc.devRef .tc main_arg1)
    _ = W2 m c (Proc.devRef .tc main_arg1) := (W3_arr m c 0).trans (((dat1 (V2 m) c).arrAt_in 0 rfl _).trans (A_eq1 (V2 m) c 0))
    _ = W1 m c (Proc.devRef .tc main_arg1) := W2_of_ne m c main_arg1 (by decide)
    _ = W0 m c (Proc.devRef .tc main_arg1) := W1_of_ne m c main_arg1 (by decide)
    _ = m ((c : Thread nD τ).loc main_arg1) := rfl

theorem W3_arg2 (c : Dev nD) : W3 m c (Proc.devRef .tc main_arg2) = m ((c : Thread nD τ).loc main_arg2) :=
  calc W3 m c (Proc.devRef .tc main_arg2)
    _ = W2 m c (Proc.devRef .tc main_arg2) := (W3_arr m c 2).trans (((dat1 (V2 m) c).arrAt_in 2 rfl _).trans (A_eq1 (V2 m) c 2))
    _ = W1 m c (Proc.devRef .tc main_arg2) := W2_of_ne m c main_arg2 (by decide)
    _ = W0 m c (Proc.devRef .tc main_arg2) := W1_of_ne m c main_arg2 (by decide)
    _ = m ((c : Thread nD τ).loc main_arg2) := rfl

theorem W3_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := (W1_arr m c 1).trans (((dat0 (V0 m) c).arrAt_in 1 rfl _).trans (A_eq0 (V0 m) c 1))
    _ = m ((c : Thread nD τ).loc main_arg3) := rfl

theorem W3_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := W1_of_ne m c main_arg4 (by decide)
    _ = m ((c : Thread nD τ).loc main_arg4) := rfl

/-- THE FRAME: every weakly fair execution terminates, nothing faulting, with the five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_arg0 m c),
     (h c _ (mem_uc main_arg1 (by decide))).trans (W3_arg1 m c),
     (h c _ (mem_uc main_arg2 (by decide))).trans (W3_arg2 m c),
     (h c _ (mem_uc main_arg3 (by decide))).trans (W3_arg3 m c),
     (h c _ (mem_uc main_arg4 (by decide))).trans (W3_arg4 m c)⟩) (run_all m ρ)

/-- The result array after the run is what the aggregation call's write-backs leave. -/
theorem W3_result (c : Dev nD) : W3 m c (Proc.devRef .tc main_v2) = (dat1 (V2 m) c).arrAt 4 cfg1.N :=
  W3_arr m c 4

/-- What the aggregation call finds: the adjacency and degree arrays as launched, the support matrix as the
    support call left it. -/
theorem V2_arg1 (c : Dev nD) : V2 m c main_arg1 = m ((c : Thread nD τ).loc main_arg1) :=
  (W2_of_ne m c main_arg1 (by decide)).trans (W1_of_ne m c main_arg1 (by decide))
theorem V2_arg2 (c : Dev nD) : V2 m c main_arg2 = m ((c : Thread nD τ).loc main_arg2) :=
  (W2_of_ne m c main_arg2 (by decide)).trans (W1_of_ne m c main_arg2 (by decide))
theorem V2_v0 (c : Dev nD) : V2 m c main_v0 = (dat0 (V0 m) c).arrAt 2 cfg0.N :=
  (W2_of_ne m c main_v0 (by decide)).trans (W1_arr m c 2)

end Cert.Kernel.Gcn

end
-- ==== Proof.SupportBody.lean ====
/-
  The support call: the first kernel region of the graph-convolution program, at the contents `V` its region
  finds in the TensorCore's buffers.

  Its grid is 8 row tiles. At each point the body multiplies the point's 2048×128 block of the feature matrix by
  the whole 128×64 weight matrix (resident: fetched once) and stores the 2048×64 product as the point's block of
  the support matrix. It keeps nothing between points.
-/
import proofs.«106753_j66322884985284_2_alg».proof.Proof.Gen.KernelIdeal.Launch
import proofs.«106753_j66322884985284_2_alg».proof.Proof.Gen.KernelIdeal.Skeleton
import proofs.«106753_j66322884985284_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, when the body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rX0 : Rect S2048x128 := Rect.unit (s := S2048x128) ![0, 0] S2048x128.size inb_S2048x128_S2048x128_0_0
abbrev rW0 : Rect S128x64 := Rect.unit (s := S128x64) ![0, 0] S128x64.size inb_S128x64_S128x64_0_0
abbrev rO0 : Rect S2048x64 := Rect.unit (s := S2048x64) ![0, 0] S2048x64.size inb_S2048x64_S2048x64_0_0

theorem hz : (![0, 0] : Fin 2 → Nat) = fun _ => 0 := funext fun a => by fin_cases a <;> rfl

/-- The output block the body stores: the product of the loaded feature block and the loaded weight matrix. -/
def supBlk (x0 : Vec F S2048x128 .f32) (x1 : Vec F S128x64 .f32) : Vec F S2048x64 .f32 := k0_pay1 x0 x1

/-- The one store is the whole output buffer. -/
theorem cover0_2 (p0 : Vec F S2048x64 .f32) (y : S2048x64.Idx) :
    ∃ pc ∈ ([⟨rO0, p0⟩] : List (View.Piece (Elt F) S2048x64 .f32)), y ∈ pc.1.set :=
  View.cover_of_tiled [⟨rO0, p0⟩] S2048x64.size (by rfl) y

set_option maxHeartbeats 1000000 in
/-- The body on whole staging memrefs — the inputs' at contents `x0`, `x1`, the output's at anything — runs to the
    continuation holding the inputs' as they were and the output's at `supBlk x0 x1`. -/
theorem sound_support (c : Dev nD) (E : Set ℕ) (i : grid0.Coords) (arg1 : Memref sig .tc .vmem S2048x128 .f32) (harg1 : arg1.IsWhole)
    (arg2 : Memref sig .tc .vmem S128x64 .f32) (harg2 : arg2.IsWhole) (arg3 : Memref sig .tc .vmem S2048x64 .f32) (harg3 : arg3.IsWhole)
    (x0 : Vec F S2048x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (supBlk x0 x1)) -∗ K ⟨⟩))
      ⊢ wp frame (wpE (defs₀ (F := F)) Variants.none c none) E (cc0__support_kernel i arg1 harg1 arg2 harg2 arg3 harg3) K := by
  simp only [cc0__support_kernel_eq_skeleton]; unfold cc0__support_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover0_2 _)).trans ?_
  rw [View.canon_unit_zero hz]
  simp only [View.readAt_eq_ld, View.ld_unit_zero (S := S2048x128) hz, View.ld_unit_zero (S := S128x64) hz]
  rfl

/-- The proof data of the support call on core `c`: the arrays as the region finds them; after the body each
    input's buffer at its block and the output's at the product of the two blocks; the launch's invariant
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => supBlk (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = supBlk (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_support c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the support call, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Gcn

end
-- ==== Proof.AggregateDefs.lean ====
/-
  The aggregation call: the second kernel region of the graph-convolution program, at the contents `V` its
  region finds in the TensorCore's buffers.

  Its grid is 8 row tiles by 16 reduction tiles (point `t` is row tile `t / 16`, reduction tile `t % 16`). At
  every point the body adds, into a 2048×64 accumulator it keeps in scratch memory between points, the product of
  the point's 2048×1024 block of the adjacency matrix with rows `1024·(t % 16) … 1024·(t % 16) + 1023` of the
  resident 16384×64 support matrix; at a row tile's first point the accumulator starts from zero, and at its
  last point the output block `max (degree · accumulator + bias) 0` is stored.
-/
import proofs.«106753_j66322884985284_2_alg».proof.Proof.Gen.KernelIdeal.Launch
import proofs.«106753_j66322884985284_2_alg».proof.Proof.Gen.KernelIdeal.Skeleton
import proofs.«106753_j66322884985284_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows of the resident support matrix the point multiplies by: 1024 rows from `1024 · (reduction tile)`. -/
abbrev rSup (i : grid1.Coords) : Rect S16384x64 := Rect.unit (s := S16384x64) (k1_off1 i) S1024x64.size (k1_off1_inb i)

/-- One point's update of the accumulator: the previous contents plus the point's adjacency block times its
    1024 rows of the support matrix. -/
def accStep (c : Dev nD) (t : Fin cfg1.N) (prev : Vec F S2048x64 .f32) : Vec F S2048x64 .f32 :=
  k1_pay2 (iblk1 V c 0 t) (View.ld (iblk1 V c 1 t) (rSup (grid1.coords t))) prev

/-- THE ACCUMULATOR after point `n`: restarted from the zero splat at the first point of each row tile
    (`n % 16 = 0`), else continued from what point `n - 1` left. -/
def accAt (c : Dev nD) : (n : ℕ) → n < cfg1.N → Vec F S2048x64 .f32
  | 0, hn => accStep V c ⟨0, hn⟩ (k1_pay1 (F := F))
  | n + 1, hn =>
    if (n + 1) % 16 = 0 then accStep V c ⟨n + 1, hn⟩ (k1_pay1 (F := F))
    else accStep V c ⟨n + 1, hn⟩ (accAt c n (Nat.lt_of_succ_lt hn))

/-- What the body stores into the output block at a row tile's last point: degree times the accumulator, plus
    the bias row, clamped below at zero. -/
def outAt (c : Dev nD) (t : Fin cfg1.N) : Vec F S2048x64 .f32 :=
  k1_pay3 (iblk1 V c 2 t) (accAt V c t.val t.isLt) (iblk1 V c 3 t)

theorem accAt_reset (c : Dev nD) (t : Fin cfg1.N) (h : t.val % 16 = 0) :
    accAt V c t.val t.isLt = accStep V c t (k1_pay1 (F := F)) := by
  obtain ⟨n, hn⟩ := t
  cases n with
  | zero => rfl
  | succ n => exact (if_pos h)

theorem accAt_cont (c : Dev nD) (t : Fin cfg1.N) (h : ¬t.val % 16 = 0) :
    accAt V c t.val t.isLt = accStep V c t (accAt V c (t.val - 1) (Nat.lt_of_le_of_lt (Nat.sub_le _ _) t.isLt)) := by
  obtain ⟨n, hn⟩ := t
  cases n with
  | zero => exact absurd (Nat.zero_mod _) h
  | succ n => exact (if_neg h)

/-- The scratch accumulator as a memref, and the other scoped buffers that are no staging buffer of this call. -/
abbrev accM : Memref sig .tc .vmem S2048x64 .f32 := Memref.whole cc1_scratch0

/-- The first call's five staging buffers, each whole at some contents: they ride through this region untouched. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The region's invariant before position `n`: before the first point whatever the launch hands the kernel
    (every scoped buffer outside the staging at some contents, the generator register at some state); after
    point `n - 1` the same with the accumulator at `accAt` of that point. -/
def PhiAcc (c : Dev nD) : (n : ℕ) → n ≤ cfg1.N → sProp 𝕄
  | 0, _ => Pipeline.ΦA spec1 c
  | n + 1, hn => iprop(otherScoped (F := F) c ∗ owns (c : Thread nD τ) accM fullShare (accAt V c n hn) ∗ (∃ r, prngReg c r))

/-- The proof data of the aggregation call on core `c`: the arrays as the region finds them; after the body
    each input's buffer at its block and the output's at `outAt` (consulted only where the block is written
    back: a row tile's last point); the invariant `PhiAcc`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt V c t
  Φ t := PhiAcc V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt V c t := by dsimp only [dat1]

end Cert.KernelIdeal.Gcn

end
-- ==== Proof.AggregateBody.lean ====
/-
  The aggregation call's body obligation: the second kernel region of the graph-convolution program, at the
  contents `V` its region finds in the TensorCore's buffers.

  First the body is run on arbitrary whole buffers in each of the three cases its two conditionals on the
  reduction coordinate leave: the first point of a row tile (the accumulator is reset to zero, then updated), a
  middle point (updated only), and the last point (updated, then the output block `max (degree · accumulator + bias) 0`
  is computed and stored). Then, at a generic grid point, the closed forms of the two conditions select the case,
  the invariant hands over the accumulator at what the point before left and takes it back at this point's
  contents, and away from a row tile's last point the output's buffer goes back as it came.
-/
import proofs.«106753_j66322884985284_2_alg».proof.Proof.AggregateDefs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions, over the grid -/

/-- The first conditional's condition: the reduction coordinate is zero. -/
abbrev condFirst (i : grid1.Coords) : Prop :=
  (Scalar.cmpi .ne (Scalar.extui (Scalar.cmpi .eq (BitVec.ofNat 32 (i 1).val) 0#32)) 0#32) = 1#1
/-- It holds at the points ≡ 0 (mod 16). -/
theorem hcondFirst : ∀ t : Fin cfg1.N, condFirst (grid1.coords t) ↔ t.val % 16 = 0 :=
  (by decide +kernel : ∀ t : Fin grid1.N, condFirst (grid1.coords t) ↔ t.val % 16 = 0)

/-- The second conditional's condition: the reduction coordinate is fifteen. -/
abbrev condLast (i : grid1.Coords) : Prop := k1_cond2 i = 1#1
/-- It holds at the points ≡ 15 (mod 16). -/
theorem hcondLast : ∀ t : Fin cfg1.N, condLast (grid1.coords t) ↔ t.val % 16 = 15 :=
  (by decide +kernel : ∀ t : Fin grid1.N, condLast (grid1.coords t) ↔ t.val % 16 = 15)

/-- The four inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- The output is idle away from a row tile's last point, and not written back there; -/
theorem idleAt1_4 : ∀ t : Fin cfg1.N, ¬condLast (grid1.coords t) → cfg1.idle 4 (grid1.coords t) = true := by decide +kernel
theorem noFlush1_4 : ∀ t : Fin cfg1.N, ¬condLast (grid1.coords t) → (cfg1.win 4).flush t = false := by decide +kernel
/-- and live at it. -/
theorem liveAt1_4 : ∀ t : Fin cfg1.N, condLast (grid1.coords t) → cfg1.idle 4 (grid1.coords t) = false := by decide +kernel

/-! ## Whole-buffer rectangles -/

theorem hzz : (![0, 0] : Fin 2 → Nat) = fun _ => 0 := funext fun a => by fin_cases a <;> rfl

/-- The whole accumulator (and the whole output block), as the body's loads and stores address it. -/
abbrev rAcc : Rect S2048x64 := Rect.unit (s := S2048x64) ![0, 0] S2048x64.size inb_S2048x64_S2048x64_0_0

/-- A list of stores whose last is of the whole buffer covers it. -/
theorem coverAcc (p0 : Vec F S2048x64 .f32) (L : List (View.Piece (Elt F) S2048x64 .f32)) (y : S2048x64.Idx) :
    ∃ pc ∈ ((⟨rAcc, p0⟩ : View.Piece (Elt F) S2048x64 .f32) :: L), y ∈ pc.1.set :=
  ⟨⟨rAcc, p0⟩, List.mem_cons_self .., View.mem_set_unit_zero hzz inb_S2048x64_S2048x64_0_0 y⟩

set_option maxHeartbeats 1000000 in
/-- A middle point of a row tile: the accumulator goes from `prev` to `prev` plus the product; the output block's
    buffer is handed back as it was. -/
theorem run_mid (c : Dev nD) (E : Set ℕ) (i : grid1.Coords)
    (arg2 : Memref sig .tc .vmem S2048x1024 .f32) (harg2 : arg2.IsWhole) (arg3 : Memref sig .tc .vmem S16384x64 .f32) (harg3 : arg3.IsWhole)
    (arg4 : Memref sig .tc .vmem S2048x1 .f32) (harg4 : arg4.IsWhole) (arg5 : Memref sig .tc .vmem S1x64 .f32) (harg5 : arg5.IsWhole)
    (arg6 : Memref sig .tc .vmem S2048x64 .f32) (harg6 : arg6.IsWhole) (arg7 : Memref sig .tc .vmem S2048x64 .f32) (harg7 : arg7.IsWhole)
    (hc0 : ¬condFirst i) (hc1 : ¬condLast i)
    (x0 : Vec F S2048x1024 .f32) (x1 : Vec F S16384x64 .f32) (x2 : Vec F S2048x1 .f32) (x3 : Vec F S1x64 .f32)
    (xi : Vec F S2048x64 .f32) (prev : Vec F S2048x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi ∗ owns (c : Thread nD τ) arg7 fullShare prev
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi
            ∗ owns (c : Thread nD τ) arg7 fullShare (k1_pay2 x0 (View.ld x1 (rSup i)) prev)) -∗ K ⟨⟩))
      ⊢ wp frame (wpE (defs₀ (F := F)) Variants.none c none) E (cc1__main_kernel i arg2 harg2 arg3 harg3 arg4 harg4 arg5 harg5 arg6 harg6 arg7 harg7) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (coverAcc _ _)).trans ?_
  rw [View.canon_unit_zero hzz]
  simp only [View.readAt_eq_ld, View.ld_unit_zero (S := S2048x1024) hzz, View.ld_unit_zero (S := S2048x64) hzz]

set_option maxHeartbeats 1000000 in
/-- The first point of a row tile: whatever the accumulator held, it ends at zero plus the product; the output
    block's buffer is handed back as it was. -/
theorem run_first (c : Dev nD) (E : Set ℕ) (i : grid1.Coords)
    (arg2 : Memref sig .tc .vmem S2048x1024 .f32) (harg2 : arg2.IsWhole) (arg3 : Memref sig .tc .vmem S16384x64 .f32) (harg3 : arg3.IsWhole)
    (arg4 : Memref sig .tc .vmem S2048x1 .f32) (harg4 : arg4.IsWhole) (arg5 : Memref sig .tc .vmem S1x64 .f32) (harg5 : arg5.IsWhole)
    (arg6 : Memref sig .tc .vmem S2048x64 .f32) (harg6 : arg6.IsWhole) (arg7 : Memref sig .tc .vmem S2048x64 .f32) (harg7 : arg7.IsWhole)
    (hc0 : condFirst i) (hc1 : ¬condLast i)
    (x0 : Vec F S2048x1024 .f32) (x1 : Vec F S16384x64 .f32) (x2 : Vec F S2048x1 .f32) (x3 : Vec F S1x64 .f32)
    (xi : Vec F S2048x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi
            ∗ owns (c : Thread nD τ) arg7 fullShare (k1_pay2 x0 (View.ld x1 (rSup i)) (k1_pay1 (F := F)))) -∗ K ⟨⟩))
      ⊢ wp frame (wpE (defs₀ (F := F)) Variants.none c none) E (cc1__main_kernel i arg2 harg2 arg3 harg3 arg4 harg4 arg5 harg5 arg6 harg6 arg7 harg7) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (coverAcc _ _)).trans ?_
  rw [View.canon_cons_unit_zero (S := S2048x64) hzz]
  sl_unfold_words
  simp only [View.readAt_eq_ld, View.readCov_unit_zero (S := S2048x64) _ hzz, View.ld_unit_zero (S := S2048x1024) hzz, View.ld_unit_zero (S := S2048x64) hzz]
  rfl

set_option maxHeartbeats 1000000 in
/-- The last point of a row tile: the accumulator is updated as at a middle point, and the output block's buffer,
    whatever it held, ends at the degree column times the updated accumulator, plus the bias row, clamped at zero. -/
theorem run_last (c : Dev nD) (E : Set ℕ) (i : grid1.Coords)
    (arg2 : Memref sig .tc .vmem S2048x1024 .f32) (harg2 : arg2.IsWhole) (arg3 : Memref sig .tc .vmem S16384x64 .f32) (harg3 : arg3.IsWhole)
    (arg4 : Memref sig .tc .vmem S2048x1 .f32) (harg4 : arg4.IsWhole) (arg5 : Memref sig .tc .vmem S1x64 .f32) (harg5 : arg5.IsWhole)
    (arg6 : Memref sig .tc .vmem S2048x64 .f32) (harg6 : arg6.IsWhole) (arg7 : Memref sig .tc .vmem S2048x64 .f32) (harg7 : arg7.IsWhole)
    (hc0 : ¬condFirst i) (hc1 : condLast i)
    (x0 : Vec F S2048x1024 .f32) (x1 : Vec F S16384x64 .f32) (x2 : Vec F S2048x1 .f32) (x3 : Vec F S1x64 .f32)
    (prev : Vec F S2048x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare prev
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k1_pay3 x2 (k1_pay2 x0 (View.ld x1 (rSup i)) prev) x3)
            ∗ owns (c : Thread nD τ) arg7 fullShare (k1_pay2 x0 (View.ld x1 (rSup i)) prev)) -∗ K ⟨⟩))
      ⊢ wp frame (wpE (defs₀ (F := F)) Variants.none c none) E (cc1__main_kernel i arg2 harg2 arg3 harg3 arg4 harg4 arg5 harg5 arg6 harg6 arg7 harg7) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (coverAcc _ _)).trans ?_
    rw [View.canon_unit_zero hzz]
    sl_unfold_words
    simp only [View.readAt_eq_ld, View.readCov_unit_zero (S := S2048x64) _ hzz, View.ld_unit_zero (S := S2048x1024) hzz, View.ld_unit_zero (S := S2048x64) hzz, View.ld_unit_zero (S := S2048x1) hzz, View.ld_unit_zero (S := S1x64) hzz]
    rfl
  iexists _; isplitr
  swap; · iexact H5
  ipureintro
  refine (View.read_writes_eq_canon _ _ _ (coverAcc _ _)).trans ?_
  rw [View.canon_unit_zero hzz]
  simp only [View.readAt_eq_ld, View.ld_unit_zero (S := S2048x1024) hzz, View.ld_unit_zero (S := S2048x64) hzz]

/-! ## The invariant, unfolded -/

/-- After point `n` (before point `n + 1`): the accumulator at that point's contents. -/
theorem PhiAcc_succ (c : Dev nD) (n : ℕ) (hn : n < cfg1.N) :
    PhiAcc V c (n + 1) hn = iprop(otherScoped (F := F) c ∗ owns (c : Thread nD τ) accM fullShare (accAt V c n hn) ∗ (∃ r, prngReg c r)) := rfl

/-- Before a point that is not the first: the accumulator at what the point before left. -/
theorem PhiAcc_pos (c : Dev nD) (n : ℕ) (h : n ≤ cfg1.N) (hz : n ≠ 0) :
    PhiAcc V c n h = iprop(otherScoped (F := F) c ∗ owns (c : Thread nD τ) accM fullShare (accAt V c (n - 1) (by omega)) ∗ (∃ r, prngReg c r)) := by
  cases n with
  | zero => exact absurd rfl hz
  | succ n => rfl

theorem PhiAcc_zero (c : Dev nD) (n : ℕ) (h : n ≤ cfg1.N) (hz : n = 0) : PhiAcc V c n h = Pipeline.ΦA spec1 c := by
  subst hz; rfl

/-- The invariant at a point's start, restated at `t.val`. -/
theorem Phi_castSucc1 (c : Dev nD) (t : Fin cfg1.N) :
    (dat1 V c).Φ t.castSucc = PhiAcc V c t.val (Nat.le_of_lt t.isLt) := by
  dsimp only [dat1]; simp only [Fin.coe_castSucc]

/-- What the launch hands the region, with the accumulator's buffer singled out as a memref owned at some contents; -/
theorem PhiA1_elim (c : Dev nD) :
    (Pipeline.ΦA spec1 c : sProp 𝕄) ⊢ iprop(otherScoped (F := F) c ∗ (∃ d, owns (c : Thread nD τ) accM fullShare d) ∗ (∃ r, prngReg c r)) := by
  unfold Pipeline.ΦA; rw [scopedRest1_eq]; unfold otherScoped; simp only [accM, owns_whole]
  iintro ⟨⟨A, B, C, D, E, S⟩, R⟩
  isplitl [A B C D E]
  · isplitl [A]; · iexact A
    isplitl [B]; · iexact B
    isplitl [C]; · iexact C
    isplitl [D]; · iexact D
    iexact E
  isplitl [S]; · iexact S
  iexact R

/-- and back. -/
theorem PhiA1_intro (c : Dev nD) :
    iprop(otherScoped (F := F) c ∗ (∃ d, owns (c : Thread nD τ) accM fullShare d) ∗ (∃ r, prngReg c r)) ⊢ (Pipeline.ΦA spec1 c : sProp 𝕄) := by
  unfold Pipeline.ΦA; rw [scopedRest1_eq]; unfold otherScoped; simp only [accM, owns_whole]
  iintro ⟨⟨A, B, C, D, E⟩, S, R⟩
  isplitl [A B C D E S]
  · isplitl [A]; · iexact A
    isplitl [B]; · iexact B
    isplitl [C]; · iexact C
    isplitl [D]; · iexact D
    isplitl [E]; · iexact E
    iexact S
  iexact R

/-! ## The inputs' staging buffers -/

/-- Each input's current staging buffer holds its block at every point, fetched there or not: the body leaves the
    block in place, and an unfetched window's block index has not moved. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4000000 in
/-- The body at any point. The inputs' buffers hold their blocks; the closed forms of the two conditions say which
    of the three cases the point is in; the invariant hands the body the accumulator at what the point before left
    (at anything, at the grid's first point) and takes it back at this point's contents; away from a row tile's last
    point the output's buffer goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiAcc V c (t.val + 1) t.isLt from rfl, PhiAcc_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  have hN : t.val < 128 := lt_of_lt_of_eq t.isLt (show cfg1.N = 128 from N_1)
  rw [Phi_castSucc1 V c t]
  by_cases h0 : t.val % 16 = 0
  · have h1 : ¬t.val % 16 = 15 := by omega
    rw [Dat.leavesExact_idle (dat1 V c) 4 t (idleAt1_4 t (fun h => h1 ((hcondLast t).mp h))) (noFlush1_4 t (fun h => h1 ((hcondLast t).mp h)))]
    rw [accAt_reset V c t h0]; unfold accStep
    by_cases hz : t.val = 0
    · rw [PhiAcc_zero V c _ _ hz]
      iintro ⟨HP, Ho, ⟨%d0, H0⟩, ⟨%d1, H1⟩, ⟨%d2, H2⟩, ⟨%d3, H3⟩, ⟨%d4, H4⟩⟩
      ihave HP' := (PhiA1_elim c) $$ HP
      icases HP' with ⟨HO, HS, Hg⟩
      iapply (run_first c Set.univ (grid1.coords t) _ _ _ _ _ _ _ _ _ _ _ _ ((hcondFirst t).mpr h0) (fun h => h1 ((hcondLast t).mp h))
        (iblk1 V c 0 t) (iblk1 V c 1 t) (iblk1 V c 2 t) (iblk1 V c 3 t) ((dat1 V c).before 4 t d4) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HO HS Hg]
      · isplitl [HO]; · iexact HO
        isplitl [HS]; · iexact HS
        iexact Hg
      isplitl [Ho]; · iexact Ho
      isplitl [H0]; · iexact H0
      isplitl [H1]; · iexact H1
      isplitl [H2]; · iexact H2
      isplitl [H3]; · iexact H3
      iexists d4; iexact H4
    · rw [PhiAcc_pos V c _ _ hz]
      iintro ⟨⟨HO, HS, Hg⟩, Ho, ⟨%d0, H0⟩, ⟨%d1, H1⟩, ⟨%d2, H2⟩, ⟨%d3, H3⟩, ⟨%d4, H4⟩⟩
      iapply (run_first c Set.univ (grid1.coords t) _ _ _ _ _ _ _ _ _ _ _ _ ((hcondFirst t).mpr h0) (fun h => h1 ((hcondLast t).mp h))
        (iblk1 V c 0 t) (iblk1 V c 1 t) (iblk1 V c 2 t) (iblk1 V c 3 t) ((dat1 V c).before 4 t d4) _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HO HS Hg]
      · isplitl [HO]; · iexact HO
        isplitl [HS]; · iexact HS
        iexact Hg
      isplitl [Ho]; · iexact Ho
      isplitl [H0]; · iexact H0
      isplitl [H1]; · iexact H1
      isplitl [H2]; · iexact H2
      isplitl [H3]; · iexact H3
      iexists d4; iexact H4
  · have hz : t.val ≠ 0 := fun e => h0 (by rw [e])
    rw [PhiAcc_pos V c _ _ hz, accAt_cont V c t h0]; unfold accStep
    by_cases h1 : t.val % 16 = 15
    · rw [show (dat1 V c).leavesExact 4 t = owns (c : Thread nD τ) (st1_4 t) fullShare ((dat1 V c).after 4 t) from by
        unfold Dat.leavesExact; rw [liveAt1_4 t ((hcondLast t).mpr h1)], after1_4]
      unfold outAt; rw [accAt_cont V c t h0]; unfold accStep
      iintro ⟨⟨HO, HS, Hg⟩, Ho, ⟨%d0, H0⟩, ⟨%d1, H1⟩, ⟨%d2, H2⟩, ⟨%d3, H3⟩, ⟨%d4, H4⟩⟩
      iapply (run_last c Set.univ (grid1.coords t) _ _ _ _ _ _ _ _ _ _ _ _ (fun h => h0 ((hcondFirst t).mp h)) ((hcondLast t).mpr h1)
        (iblk1 V c 0 t) (iblk1 V c 1 t) (iblk1 V c 2 t) (iblk1 V c 3 t) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HO HS Hg]
      · isplitl [HO]; · iexact HO
        isplitl [HS]; · iexact HS
        iexact Hg
      isplitl [Ho]; · iexact Ho
      isplitl [H0]; · iexact H0
      isplitl [H1]; · iexact H1
      isplitl [H2]; · iexact H2
      isplitl [H3]; · iexact H3
      iexact H4
    · rw [Dat.leavesExact_idle (dat1 V c) 4 t (idleAt1_4 t (fun h => h1 ((hcondLast t).mp h))) (noFlush1_4 t (fun h => h1 ((hcondLast t).mp h)))]
      iintro ⟨⟨HO, HS, Hg⟩, Ho, ⟨%d0, H0⟩, ⟨%d1, H1⟩, ⟨%d2, H2⟩, ⟨%d3, H3⟩, ⟨%d4, H4⟩⟩
      iapply (run_mid c Set.univ (grid1.coords t) _ _ _ _ _ _ _ _ _ _ _ _ (fun h => h0 ((hcondFirst t).mp h)) (fun h => h1 ((hcondLast t).mp h))
        (iblk1 V c 0 t) (iblk1 V c 1 t) (iblk1 V c 2 t) (iblk1 V c 3 t) ((dat1 V c).before 4 t d4)
        (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HO HS Hg]
      · isplitl [HO]; · iexact HO
        isplitl [HS]; · iexact HS
        iexact Hg
      isplitl [Ho]; · iexact Ho
      isplitl [H0]; · iexact H0
      isplitl [H1]; · iexact H1
      isplitl [H2]; · iexact H2
      isplitl [H3]; · iexact H3
      iexists d4; iexact H4

/-- The body obligation of the aggregation call, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiAcc V c 0 (Nat.zero_le _) from rfl, PhiAcc_zero V c 0 _ rfl]

/-- After the last point the invariant gives it back, the accumulator's contents forgotten. -/
theorem hout1 (c : Dev nD) : (dat1 V c).Φ (Fin.last cfg1.N) ⊢ Pipeline.ΦA spec1 c := by
  have ht : (Fin.last cfg1.N).val ≠ 0 := by rw [Fin.val_last]; have : cfg1.N = 128 := N_1; omega
  rw [show (dat1 V c).Φ (Fin.last cfg1.N) = PhiAcc V c (Fin.last cfg1.N).val (Nat.le_of_lt_succ (Fin.last cfg1.N).isLt) from rfl,
    PhiAcc_pos V c _ _ ht]
  iintro ⟨HO, HS, Hg⟩
  iapply (PhiA1_intro c)
  isplitl [HO]; · iexact HO
  isplitl [HS]; · iexists _; iexact HS
  iexact Hg

end Cert.KernelIdeal.Gcn

end
-- ==== Proof.Launch.lean ====
/-
  The whole program as a run: the support call, the host's reshape of the bias, the aggregation call.

  The buffers' contents at each boundary are a fold from the launch memory: after the support call its arrays hold
  what its write-backs leave (only the support matrix changes); the host then writes the bias row; after the
  aggregation call its arrays hold what its write-backs leave (only the result changes). Each call is entered
  with every buffer that outlives a call at the boundary's contents, the generator register at some state and
  nothing owed, and left the same way; so every weakly fair execution from a memory with zero counters terminates
  with every such buffer at the last boundary's contents.
-/
import proofs.«106753_j66322884985284_2_alg».proof.Proof.SupportBody
import proofs.«106753_j66322884985284_2_alg».proof.Proof.AggregateBody

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch (the support call's entry: no host operation comes before it). -/
abbrev W0 : Dev nD → Valuation τ sig (Elt F) := fun c b => m (c, b)
abbrev V0 : (c : Dev nD) → (b : Ref sig .tc) → Buf (Elt F) ((c : Thread nD τ).loc b) := fun c b => W0 m c b

/-- After the support call: its arrays at what its write-backs leave, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host's reshape of the bias (the aggregation call's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b

/-- After the aggregation call: its arrays at what its write-backs leave, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- The reshape writes the bias row only: every other buffer passes it unchanged. -/
theorem W2_of_ne (c : Dev nD) (b : Ref sig .tc) (hb : b ≠ main_v1) :
    W2 m c (Proc.devRef .tc b) = W1 m c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-! ## The proof data family and the thread state -/

abbrev adm : (p : Fin 2) → (pcfgs (F := F) p).Adm := fun p => (cfgs p).toPCfg_adm

/-- Each call's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0

/-- What rides beside the buffers through every segment: the generator register at some state, and nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W3 m c) ∗ ∃ r, prngReg c r)

/-! ## The calls as segments -/

/-- The launch's invariant for the aggregation call, from its parts as the region rule hands them, -/
theorem phiA1_of_parts (c : Dev nD) (P : sProp 𝕄) :
    iprop((∃ r, prngReg c r) ∗ P ∗ Pipeline.scopedRest spec1 c) ⊢ (Pipeline.ΦA spec1 c : sProp 𝕄) := by
  unfold Pipeline.ΦA
  iintro ⟨Hp, -, Hr⟩
  isplitl [Hr]; · iexact Hr
  iexact Hp

/-- and back into the parts the region rule takes at the exit. -/
theorem parts_of_phiA1 (c : Dev nD) :
    (Pipeline.ΦA spec1 c : sProp 𝕄) ⊢ iprop((∃ r, prngReg c r) ∗ emp ∗ Pipeline.scopedRest spec1 c) := by
  unfold Pipeline.ΦA
  iintro ⟨Hr, Hp⟩
  isplitl [Hp]; · iexact Hp
  isplitr; · iempintro
  iexact Hr

set_option backward.isDefEq.respectTransparency.types false in
/-- THE SUPPORT CALL: entered from every buffer at the launch contents, left at `W1`. Its arrays are split out of
    the buffers and put back at their exit contents; the generator register goes into the call's invariant and
    comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE AGGREGATION CALL: entered from every buffer at `W2`, left at `W3`. The generator register and the scoped
    buffers outside its staging (the accumulator among them) go into the call's invariant, which tracks the
    accumulator between points, and come back with the accumulator's contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA1_of_parts c _).trans (hin1 (V2 m) c)
  hout c := by
    rw [Pipeline.ownSems0_none]
    exact (hout1 (V2 m) c).trans (parts_of_phiA1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m) ]

theorem main_run (c : Dev nD) : main (F := F) c = Pipeline.Seg.run (segs m) := (main_chain c).trans (by chain_rfl)

set_option backward.isDefEq.respectTransparency.types false in
/-- THE RUN: from any memory with zero counters every weakly fair execution terminates, nothing faulting, and
    every buffer that outlives the calls ends at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## The arguments end as launched -/

theorem W3_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := (W1_arr m c 0).trans (((dat0 (V0 m) c).arrAt_in 0 rfl _).trans (A_eq0 (V0 m) c 0))
    _ = m ((c : Thread nD τ).loc main_arg0) := rfl

theorem W3_arg1 (c : Dev nD) : W3 m c (Proc.devRef .tc main_arg1) = m ((c : Thread nD τ).loc main_arg1) :=
  calc W3 m c (Proc.devRef .tc main_arg1)
    _ = W2 m c (Proc.devRef .tc main_arg1) := (W3_arr m c 0).trans (((dat1 (V2 m) c).arrAt_in 0 rfl _).trans (A_eq1 (V2 m) c 0))
    _ = W1 m c (Proc.devRef .tc main_arg1) := W2_of_ne m c main_arg1 (by decide)
    _ = W0 m c (Proc.devRef .tc main_arg1) := W1_of_ne m c main_arg1 (by decide)
    _ = m ((c : Thread nD τ).loc main_arg1) := rfl

theorem W3_arg2 (c : Dev nD) : W3 m c (Proc.devRef .tc main_arg2) = m ((c : Thread nD τ).loc main_arg2) :=
  calc W3 m c (Proc.devRef .tc main_arg2)
    _ = W2 m c (Proc.devRef .tc main_arg2) := (W3_arr m c 2).trans (((dat1 (V2 m) c).arrAt_in 2 rfl _).trans (A_eq1 (V2 m) c 2))
    _ = W1 m c (Proc.devRef .tc main_arg2) := W2_of_ne m c main_arg2 (by decide)
    _ = W0 m c (Proc.devRef .tc main_arg2) := W1_of_ne m c main_arg2 (by decide)
    _ = m ((c : Thread nD τ).loc main_arg2) := rfl

theorem W3_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := (W1_arr m c 1).trans (((dat0 (V0 m) c).arrAt_in 1 rfl _).trans (A_eq0 (V0 m) c 1))
    _ = m ((c : Thread nD τ).loc main_arg3) := rfl

theorem W3_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := W1_of_ne m c main_arg4 (by decide)
    _ = m ((c : Thread nD τ).loc main_arg4) := rfl

/-- THE FRAME: every weakly fair execution terminates, nothing faulting, with the five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_arg0 m c),
     (h c _ (mem_uc main_arg1 (by decide))).trans (W3_arg1 m c),
     (h c _ (mem_uc main_arg2 (by decide))).trans (W3_arg2 m c),
     (h c _ (mem_uc main_arg3 (by decide))).trans (W3_arg3 m c),
     (h c _ (mem_uc main_arg4 (by decide))).trans (W3_arg4 m c)⟩) (run_all m ρ)

/-- The result array after the run is what the aggregation call's write-backs leave. -/
theorem W3_result (c : Dev nD) : W3 m c (Proc.devRef .tc main_v2) = (dat1 (V2 m) c).arrAt 4 cfg1.N :=
  W3_arr m c 4

/-- What the aggregation call finds: the adjacency and degree arrays as launched, the support matrix as the
    support call left it. -/
theorem V2_arg1 (c : Dev nD) : V2 m c main_arg1 = m ((c : Thread nD τ).loc main_arg1) :=
  (W2_of_ne m c main_arg1 (by decide)).trans (W1_of_ne m c main_arg1 (by decide))
theorem V2_arg2 (c : Dev nD) : V2 m c main_arg2 = m ((c : Thread nD τ).loc main_arg2) :=
  (W2_of_ne m c main_arg2 (by decide)).trans (W1_of_ne m c main_arg2 (by decide))
theorem V2_v0 (c : Dev nD) : V2 m c main_v0 = (dat0 (V0 m) c).arrAt 2 cfg0.N :=
  (W2_of_ne m c main_v0 (by decide)).trans (W1_arr m c 2)

end Cert.KernelIdeal.Gcn

end
-- ==== Proof.Spec.lean ====
/-
  The graph-convolution layer as one function of its five argument arrays, over the extended reals.

  `supG x w` is the support matrix `x · w` (16384×64, each entry a sum of 128 products); `outG adj sup deg b` is,
  at row `n` and column `h`, `max (deg n · (∑ m, adj (n, m) · sup (m, h)) + b h) 0`; the layer is
  `gcnG x adj deg w b = outG adj (supG x w) deg b`. The sum over the 16384 nodes regroups, by the monoid laws of
  extended-real addition alone, into 16 consecutive runs of 1024 — the order in which a blocked kernel accumulates
  it (`sum_blocks`).
-/
import Idealize.ShloMosaic.Lib.ValueIdx
import Idealize.ShloMosaic.Lib.ValueLayout
import Idealize.ShloMosaic.PureOps.Ideal.Laws
import Mathlib.Algebra.BigOperators.Fin
import Mathlib.Logic.Equiv.Fin.Basic

noncomputable section

namespace Cert.GcnSpec

open Idealize.ShloMosaic Idealize.ShloMosaic.ValueIdx

/-- The support matrix: features times weights. -/
def supG (x : FVec Ideal ⟨2, ![16384, 128]⟩ .f32) (w : FVec Ideal ⟨2, ![128, 64]⟩ .f32) : FVec Ideal ⟨2, ![16384, 64]⟩ .f32 :=
  fun i => ∑ f : Fin 128, x (ix2 (i 0) f) * w (ix2 f (i 1))

/-- The aggregation with a bias ROW `b1` (the bias reshaped to 1×64, as the kernel's window holds it). -/
def outG1 (adj : FVec Ideal ⟨2, ![16384, 16384]⟩ .f32) (sup : FVec Ideal ⟨2, ![16384, 64]⟩ .f32)
    (deg : FVec Ideal ⟨2, ![16384, 1]⟩ .f32) (b1 : FVec Ideal ⟨2, ![1, 64]⟩ .f32) : FVec Ideal ⟨2, ![16384, 64]⟩ .f32 :=
  fun i => max (deg (ix2 (i 0) 0) * (∑ m : Fin 16384, adj (ix2 (i 0) m) * sup (ix2 m (i 1))) + b1 (ix2 0 (i 1)))
    (Ideal.ofBits .f32 0x00000000#32)

/-- The aggregation with the bias vector itself. -/
def outG (adj : FVec Ideal ⟨2, ![16384, 16384]⟩ .f32) (sup : FVec Ideal ⟨2, ![16384, 64]⟩ .f32)
    (deg : FVec Ideal ⟨2, ![16384, 1]⟩ .f32) (b : FVec Ideal ⟨1, ![64]⟩ .f32) : FVec Ideal ⟨2, ![16384, 64]⟩ .f32 :=
  fun i => max (deg (ix2 (i 0) 0) * (∑ m : Fin 16384, adj (ix2 (i 0) m) * sup (ix2 m (i 1))) + b (ix1 (i 1)))
    (Ideal.ofBits .f32 0x00000000#32)

/-- The layer. -/
def gcnG (x : FVec Ideal ⟨2, ![16384, 128]⟩ .f32) (adj : FVec Ideal ⟨2, ![16384, 16384]⟩ .f32)
    (deg : FVec Ideal ⟨2, ![16384, 1]⟩ .f32) (w : FVec Ideal ⟨2, ![128, 64]⟩ .f32) (b : FVec Ideal ⟨1, ![64]⟩ .f32) :
    FVec Ideal ⟨2, ![16384, 64]⟩ .f32 :=
  outG adj (supG x w) deg b

/-- A sum over `a * b` terms is the sum over `a` consecutive runs of `b` of them: the positions `0 … a·b − 1` are
    in bijection with the pairs (run `k`, offset `j`) by `(k, j) ↦ b·k + j`, and a sum in a commutative monoid
    may be reindexed along a bijection and then split over the pairs. -/
theorem sum_fin_mul (a b : ℕ) (g : ℕ → EReal) :
    (∑ m : Fin (a * b), g m.val) = ∑ k : Fin a, ∑ j : Fin b, g (b * k.val + j.val) := by
  rw [← Equiv.sum_comp finProdFinEquiv (fun m : Fin (a * b) => g m.val), Fintype.sum_prod_type]
  refine Finset.sum_congr rfl fun k _ => Finset.sum_congr rfl fun j _ => ?_
  show g (j.val + b * k.val) = g (b * k.val + j.val)
  rw [Nat.add_comm]

/-- A sum over 16384 terms is the sum over 16 consecutive runs of 1024 of them (extended-real addition is a
    commutative monoid: no finiteness is needed). -/
theorem sum_blocks (g : ℕ → EReal) :
    (∑ m : Fin 16384, g m.val) = ∑ k : Fin 16, ∑ j : Fin 1024, g (1024 * k.val + j.val) :=
  sum_fin_mul 16 1024 g

/-- The running sum of the first `n + 1` runs, the form a blocked accumulation leaves after its run `n`. -/
theorem sum_runs_succ (g : ℕ → EReal) (n : ℕ) :
    (∑ k ∈ Finset.range (n + 1), ∑ j : Fin 1024, g (1024 * k + j.val))
      = (∑ k ∈ Finset.range n, ∑ j : Fin 1024, g (1024 * k + j.val)) + ∑ j : Fin 1024, g (1024 * n + j.val) :=
  Finset.sum_range_succ _ _

/-- All 16 runs, as a sum over `range 16`, are the whole sum. -/
theorem sum_runs_all (g : ℕ → EReal) :
    (∑ k ∈ Finset.range 16, ∑ j : Fin 1024, g (1024 * k + j.val)) = ∑ m : Fin 16384, g m.val := by
  rw [sum_blocks, ← Fin.sum_univ_eq_sum_range (fun k => ∑ j : Fin 1024, g (1024 * k + j.val)) 16]

/-- The bias reshaped to a 1×64 row reads, at `(0, c)`, the bias at `c`: a shape cast keeps the row-major order,
    and position `c` of the vector is position `0·64 + c` of the row. -/
theorem bias_row (b : FVec Ideal ⟨1, ![64]⟩ .f32) (h : (⟨1, ![64]⟩ : Shape).ShapeCasts ⟨2, ![1, 64]⟩) (c : Fin 64) :
    shapeCast ⟨2, ![1, 64]⟩ b h (ix2 0 c) = b (ix1 c) :=
  shapeCast_a_1a_apply b h 0 c

/-- The aggregation with the reshaped bias row is the aggregation with the bias. -/
theorem outG1_reshape (adj : FVec Ideal ⟨2, ![16384, 16384]⟩ .f32) (sup : FVec Ideal ⟨2, ![16384, 64]⟩ .f32)
    (deg : FVec Ideal ⟨2, ![16384, 1]⟩ .f32) (b : FVec Ideal ⟨1, ![64]⟩ .f32)
    (h : (⟨1, ![64]⟩ : Shape).ShapeCasts ⟨2, ![1, 64]⟩) :
    outG1 adj sup deg (shapeCast ⟨2, ![1, 64]⟩ b h) = outG adj sup deg b := by
  funext i
  have hb : shapeCast ⟨2, ![1, 64]⟩ b h (ix2 0 (i 1)) = b (ix1 (i 1)) := bias_row b h (i 1)
  unfold outG1 outG
  rw [hb]

end Cert.GcnSpec

end
-- ==== Proof.LibPlainMatmul.lean ====
/-
  A plain matrix product read at one entry, over the extended reals.

  For the dimension numbers of an `M×K` by `K×N` product (`DotDims.plain M K N`: the left operand contracted on its
  second axis, the right on its first, no batch axis) the product accumulated into the zero splat has, at row `r` and
  column `c`, the entry `∑ k, lhs (r, k) * rhs (k, c)`: the contraction index, a one-axis multi-index, is re-indexed
  by its one coordinate `k : Fin K`, and the operand indices the dimension numbers compute are `(r, k)` and `(k, c)`.
  Stated for every `M`, `K`, `N`, with the indices built by `ix2`.
-/
import Idealize.ShloMosaic.Lib.ValueIdx
import Idealize.ShloMosaic.PureOps.Ideal.Laws

noncomputable section

namespace Cert.Lib.PlainMatmul

open Idealize.ShloMosaic Idealize.ShloMosaic.ValueIdx

variable {M K N : Nat}

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction index's one coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction index's one coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- THE ENTRY: an `M×K` by `K×N` product into the zero accumulator, at `(r, c)`, is the sum over `k` of
    `lhs (r, k) * rhs (k, c)` — no rounding, no order, whatever the operands' formats and the precision hint. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun a => Fin.ext (by
      match a with
      | ⟨0, _⟩ => exact (rhs_row _ _).trans hk
      | ⟨1, _⟩ => exact rhs_col _ _)
  rw [el, er]

end Cert.Lib.PlainMatmul

end
-- ==== Proof.LibColumns.lean ====
/-
  Column forms of the layout operations, read at an index written by coordinates.

  A vector of `a` numbers is kept as a column `[a, 1]`, as a block `[1, a, 1]`, or flat `[a]`; a shape cast between these
  keeps the row-major position, which is the one coordinate `i` in every form. A column broadcast to `[a, b]` reads, at
  `(i, j)`, the column's entry `i`. The extents are arbitrary; every index is built by `ix1`, `ix2`, `ix3`.
-/
import Idealize.ShloMosaic.Lib.ValueIdx
import Idealize.ShloMosaic.Lib.Pipeline.Value

noncomputable section

namespace Cert.Lib.Columns

open Idealize.ShloMosaic Idealize.ShloMosaic.ValueIdx

variable {α : Type}

/-- `[1, a, 1]` cast to `[a]`: at `i` the operand at `(0, i, 0)`. -/
theorem shapeCast_1a1_a_apply {a : ℕ} (x : (⟨3, ![1, a, 1]⟩ : Shape).Idx → α)
    (h : (⟨3, ![1, a, 1]⟩ : Shape).ShapeCasts ⟨1, ![a]⟩) (i : Fin a) :
    shapeCast ⟨1, ![a]⟩ x h (ix1 i) = x (ix3 (0 : Fin 1) i (0 : Fin 1)) :=
  shapeCast_apply x h _ _ (by
    rw [Shape.rowMajor_val_three, Shape.rowMajor_val_one]
    show (0 * a + i.val) * 1 + 0 = i.val
    omega)

/-- `[a]` cast to `[1, a, 1]`: at `(u, i, v)` the operand at `i`. -/
theorem shapeCast_a_1a1_apply {a : ℕ} (x : (⟨1, ![a]⟩ : Shape).Idx → α)
    (h : (⟨1, ![a]⟩ : Shape).ShapeCasts ⟨3, ![1, a, 1]⟩) (u : Fin 1) (i : Fin a) (v : Fin 1) :
    shapeCast ⟨3, ![1, a, 1]⟩ x h (ix3 u i v) = x (ix1 i) :=
  shapeCast_apply x h _ _ (by
    have hu : u.val = 0 := by omega
    have hv : v.val = 0 := by omega
    rw [Shape.rowMajor_val_three, Shape.rowMajor_val_one]
    show i.val = (u.val * a + i.val) * 1 + v.val
    rw [hu, hv]
    omega)

/-- `[a]` cast to the column `[a, 1]`: at `(i, u)` the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]
    omega)

/-- A column `[a, 1]` broadcast to `[a, b]`: at `(i, j)` the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.Lib.Columns

end
-- ==== Proof.SupportValue.lean ====
/-
  What the support call leaves in the support matrix's array, over the extended reals: the product of the
  feature matrix and the weight matrix as the region finds them. Point `t` writes back rows `2048 t … 2048 t + 2047`,
  each entry the sum of 128 products; the eight blocks tile the array.
-/
import proofs.«106753_j66322884985284_2_alg».proof.Proof.SupportBody
import proofs.«106753_j66322884985284_2_alg».proof.Proof.Spec
import proofs.«106753_j66322884985284_2_alg».proof.Proof.LibPlainMatmul
import proofs.«106753_j66322884985284_2_alg».proof.Proof.LibColumns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gcn

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.GcnSpec

variable (V : (c : Dev nD) → (b : Ref sig .tc) → Buf (Elt Ideal) ((c : Thread nD τ).loc b))

/-! ## One entry of the block a point stores -/

/-- Over the extended reals the narrowing of the operands to bf16 changes nothing, and the product into the zero
    accumulator has, at row `p` and column `q`, the sum over the 128 features of the products. -/
theorem supBlk_apply (b0 : FVec Ideal S2048x128 .f32) (b1 : FVec Ideal S128x64 .f32) (p : Fin 2048) (q : Fin 64) :
    supBlk (F := Ideal) b0 b1 (ix2 p q) = ∑ f : Fin 128, b0 (ix2 p f) * b1 (ix2 f q) := by
  unfold supBlk k0_pay1
  show FloatOps.matmul (DotDims.plain 2048 128 64) none b0 b1 (constant (F := Ideal) ⟨2, ![2048, 64]⟩ .f32 0x00000000#32) (ix2 p q) = _
  exact Cert.Lib.PlainMatmul.matmul_zero_apply none b0 b1 p q

/-- When row `p` of the feature block is row `r` of the feature matrix and the weight block is the weight matrix,
    the entry is the support matrix's at `(r, q)`. -/
theorem supBlk_entry (x : FVec Ideal ⟨2, ![16384, 128]⟩ .f32) (w : FVec Ideal ⟨2, ![128, 64]⟩ .f32)
    (b0 : FVec Ideal S2048x128 .f32) (b1 : FVec Ideal S128x64 .f32) (r : Fin 16384) (p : Fin 2048) (q : Fin 64)
    (h0 : ∀ f : Fin 128, b0 (ix2 p f) = x (ix2 r f)) (h1 : ∀ f : Fin 128, b1 (ix2 f q) = w (ix2 f q)) :
    supBlk (F := Ideal) b0 b1 (ix2 p q) = supG x w (ix2 r q) := by
  rw [supBlk_apply]
  show _ = ∑ f : Fin 128, x (ix2 r f) * w (ix2 f q)
  exact Finset.sum_congr rfl fun f _ => by rw [h0 f, h1 f]

/-! ## The index maps -/

/-- The printed index maps over the eight points: the feature window and the support window are both on row block
    `t`, column block 0; the weight window stays on block (0, 0). -/
theorem idx_support : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## The input blocks, entry by entry -/

/-- Row `p` of the feature window's block at point `t` is row `2048 t + p` of the feature matrix: a block's
    coordinate in its array is the block index times the block's extent plus the coordinate inside the block. -/
theorem featBlk_apply (c : Dev nD) (t : Fin cfg0.N) (p : Fin 2048) (f : Fin 128) (r : Fin 16384)
    (hr : r.val = t.val * 2048 + p.val) :
    iblk0 V c 0 t (ix2 p f) = V c main_arg0 (ix2 r f) := by
  obtain ⟨e0, e1, -, -, -, -⟩ := idx_support t
  show V c main_arg0 (((cfg0.win 0).blk t).view.emb (ix2 p f)) = _
  refine congrArg (V c main_arg0) ?_
  funext a; apply Fin.ext
  match a with
  | ⟨0, _⟩ => show win0_0.index t (0 : Fin 2) * 2048 + 1 * p.val = r.val; omega
  | ⟨1, _⟩ => show win0_0.index t (1 : Fin 2) * 128 + 1 * f.val = f.val; omega

/-- The weight window's block is the weight matrix at every point. -/
theorem weightBlk_apply (c : Dev nD) (t : Fin cfg0.N) (f : Fin 128) (q : Fin 64) :
    iblk0 V c 1 t (ix2 f q) = V c main_arg3 (ix2 f q) := by
  obtain ⟨-, -, e2, e3, -, -⟩ := idx_support t
  show V c main_arg3 (((cfg0.win 1).blk t).view.emb (ix2 f q)) = _
  refine congrArg (V c main_arg3) ?_
  funext a; apply Fin.ext
  match a with
  | ⟨0, _⟩ => show win0_1.index t (0 : Fin 2) * 128 + 1 * f.val = f.val; omega
  | ⟨1, _⟩ => show win0_1.index t (1 : Fin 2) * 64 + 1 * q.val = q.val; omega

/-! ## What a point writes back -/

/-- Point `t` writes back block `t` of the support matrix `supG` of the two argument arrays. -/
theorem flushed_support (c : Dev nD) (t : Fin cfg0.N) :
    (dat0 (F := Ideal) V c).flushed 2 t
      = ((cfg0.win 2).blk t).view.read (Elt Ideal) (supG (V c main_arg0) (V c main_arg3)) := by
  show (cfg0.win 2).cut (grid0.coords t) ((dat0 (F := Ideal) V c).after 2 t) = _
  rw [after0_2]
  have hN : cfg0.N = 8 := N_0
  obtain ⟨-, -, -, -, e4, e5⟩ := idx_support t
  funext j
  obtain ⟨p, q, rfl⟩ : ∃ (p : Fin 2048) (q : Fin 64), j = ix2 p q := ⟨j 0, j 1, eq_ix2 j⟩
  have hr : t.val * 2048 + p.val < 16384 := by have := t.isLt; omega
  show supBlk (F := Ideal) (iblk0 V c 0 t) (iblk0 V c 1 t) (ix2 p q)
    = supG (V c main_arg0) (V c main_arg3) (((cfg0.win 2).blk t).view.emb (ix2 p q))
  have he : ((cfg0.win 2).blk t).view.emb (ix2 p q) = ix2 (⟨t.val * 2048 + p.val, hr⟩ : Fin 16384) q := by
    funext a; apply Fin.ext
    match a with
    | ⟨0, _⟩ => show win0_2.index t (0 : Fin 2) * 2048 + 1 * p.val = t.val * 2048 + p.val; omega
    | ⟨1, _⟩ => show win0_2.index t (1 : Fin 2) * 64 + 1 * q.val = q.val; omega
  rw [he]
  exact supBlk_entry _ _ _ _ ⟨t.val * 2048 + p.val, hr⟩ p q
    (fun f => featBlk_apply V c t p f _ rfl) (fun f => weightBlk_apply V c t f q)

/-! ## The blocks tile the array -/

/-- An index of the support array is in point `t`'s block iff each coordinate is in the block's range on its axis. -/
theorem mem_blk_support (t : Fin cfg0.N) (i : S16384x64.Idx) :
    i ∈ ((cfg0.win 2).blk t).view.set ↔ ∀ a : Fin 2, win0_2.index t a * S2048x64.size a ≤ (i a).val
      ∧ (i a).val < win0_2.index t a * S2048x64.size a + S2048x64.size a := by
  show i ∈ ((View.whole main_v0).slice (win0_2.rect t)).set ↔ _
  rw [View.set_slice_whole, Rect.mem_set_unit]
  exact Iff.rfl

/-- Every index is in some point's block: row `r` is in the block of point `r / 2048`. -/
theorem cover_support (i : S16384x64.Idx) :
    ∃ t : Fin cfg0.N, (cfg0.win 2).flush t = true ∧ i ∈ ((cfg0.win 2).blk t).view.set := by
  have hi0 : (i 0).val < 16384 := (i 0).isLt
  have hi1 : (i 1).val < 64 := (i 1).isLt
  have hN : cfg0.N = 8 := N_0
  have hlt : (i 0).val / 2048 < cfg0.N := by rw [hN]; omega
  obtain ⟨-, -, -, -, e4, e5⟩ := idx_support ⟨(i 0).val / 2048, hlt⟩
  refine ⟨⟨(i 0).val / 2048, hlt⟩, flush0_2 _, ?_⟩
  rw [mem_blk_support]
  intro a
  match a with
  | ⟨0, _⟩ =>
    show win0_2.index ⟨(i 0).val / 2048, hlt⟩ (0 : Fin 2) * 2048 ≤ (i 0).val
      ∧ (i 0).val < win0_2.index ⟨(i 0).val / 2048, hlt⟩ (0 : Fin 2) * 2048 + 2048
    rw [e4]; show (i 0).val / 2048 * 2048 ≤ (i 0).val ∧ (i 0).val < (i 0).val / 2048 * 2048 + 2048; omega
  | ⟨1, _⟩ =>
    show win0_2.index ⟨(i 0).val / 2048, hlt⟩ (1 : Fin 2) * 64 ≤ (i 1).val
      ∧ (i 1).val < win0_2.index ⟨(i 0).val / 2048, hlt⟩ (1 : Fin 2) * 64 + 64
    rw [e5]; omega

/-- THE SUPPORT MATRIX after the first call: `supG` of the feature and weight arrays as the region finds them. -/
theorem support_final (c : Dev nD) :
    (dat0 (F := Ideal) V c).arrAt 2 cfg0.N = supG (V c main_arg0) (V c main_arg3) := by
  exact (dat0 (F := Ideal) V c).arrAt_eq_of_cover 2 (supG (V c main_arg0) (V c main_arg3))
    (fun t _ => flushed_support V c t) cover_support

end Cert.KernelIdeal.Gcn

end
-- ==== Proof.AggregateValue.lean ====
/-
  What the aggregation call leaves in the result array, over the extended reals: at row `n`, column `h`,
  `max (degree n · (∑ m, adjacency (n, m) · support (m, h)) + bias h) 0`, of the arrays as the region finds them.
  After point `t` (row tile `t / 16`, reduction tile `t % 16`) the accumulator holds, at (r, h), the sum over the
  first `t % 16 + 1` runs of 1024 nodes of `adjacency (2048 (t / 16) + r, m) · support (m, h)`; at a row tile's
  last point that is the whole sum over the 16384 nodes, and the block written back is the result's.
-/
import proofs.«106753_j66322884985284_2_alg».proof.Proof.AggregateDefs
import proofs.«106753_j66322884985284_2_alg».proof.Proof.Spec
import proofs.«106753_j66322884985284_2_alg».proof.Proof.LibPlainMatmul
import proofs.«106753_j66322884985284_2_alg».proof.Proof.LibColumns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gcn

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.GcnSpec

variable (V : (c : Dev nD) → (b : Ref sig .tc) → Buf (Elt Ideal) ((c : Thread nD τ).loc b))

/-- One accumulation step at an entry: the previous entry plus the row of the adjacency block times the column of
    the support rows. -/
theorem pay2_apply (x0 : FVec Ideal S2048x1024 .f32) (x8 : FVec Ideal S1024x64 .f32) (prev : FVec Ideal S2048x64 .f32)
    (r : Fin 2048) (h : Fin 64) :
    k1_pay2 (F := Ideal) x0 x8 prev (ix2 r h) = prev (ix2 r h) + ∑ j : Fin 1024, x0 (ix2 r j) * x8 (ix2 j h) := by
  unfold k1_pay2
  rw [shapeCast_self, shapeCast_self]
  show prev (ix2 r h) + FloatOps.matmul (DotDims.plain 2048 1024 64) none _ _ _ (ix2 r h) = _
  rw [Cert.Lib.PlainMatmul.matmul_zero_apply]
  rfl

theorem pay1_apply (r : Fin 2048) (h : Fin 64) : k1_pay1 (F := Ideal) (ix2 r h) = 0 := by
  unfold k1_pay1
  rw [shapeCast_self]
  show Ideal.ofBits .f32 0x00000000#32 = 0
  exact Ideal.ofBits_zero_f32

theorem pay3_apply (d : FVec Ideal S2048x1 .f32) (acc : FVec Ideal S2048x64 .f32) (b : FVec Ideal S1x64 .f32)
    (r : Fin 2048) (h : Fin 64) :
    k1_pay3 (F := Ideal) d acc b (ix2 r h)
      = max (d (ix2 r (0 : Fin 1)) * acc (ix2 r h) + b (ix2 (0 : Fin 1) h)) (Ideal.ofBits .f32 0x00000000#32) := by
  unfold k1_pay3
  rw [shapeCast_self]
  show max (broadcastTo S2048x64 d _ (ix2 r h) * acc (ix2 r h) + broadcastTo S2048x64 b _ (ix2 r h)) (Ideal.ofBits .f32 0x00000000#32) = _
  rw [Cert.Lib.Columns.broadcastTo_a1_ab_apply, broadcastTo_1b_ab_apply]

/-! ## The index maps over the grid -/

/-- The printed index maps and the support-row offset at point `t`: row tile `t / 16`, reduction tile `t % 16`. -/
theorem idx_facts : ∀ t : Fin cfg1.N,
    win1_0.index t (0 : Fin 2) = t.val / 16 ∧ win1_0.index t (1 : Fin 2) = t.val % 16
    ∧ win1_1.index t (0 : Fin 2) = 0 ∧ win1_1.index t (1 : Fin 2) = 0
    ∧ win1_2.index t (0 : Fin 2) = t.val / 16 ∧ win1_2.index t (1 : Fin 2) = 0
    ∧ win1_3.index t (0 : Fin 2) = 0 ∧ win1_3.index t (1 : Fin 2) = 0
    ∧ win1_4.index t (0 : Fin 2) = t.val / 16 ∧ win1_4.index t (1 : Fin 2) = 0
    ∧ k1_off1 (grid1.coords t) 0 = 1024 * (t.val % 16) ∧ k1_off1 (grid1.coords t) 1 = 0 :=
  (by decide +kernel : ∀ t : Fin grid1.N, _)

/-! ## The blocks the body reads, as entries of the arrays -/

/-- The adjacency block at point `t`: rows `2048 (t / 16) + r`, columns `1024 (t % 16) + j`. -/
theorem iblk_adj (c : Dev nD) (t : Fin cfg1.N) (r : Fin 2048) (j : Fin 1024) (R C : Fin 16384)
    (hR : R.val = 2048 * (t.val / 16) + r.val) (hC : C.val = 1024 * (t.val % 16) + j.val) :
    (iblk1 V c 0 t : FVec Ideal S2048x1024 .f32) (ix2 r j) = (V c main_arg1 : FVec Ideal S16384x16384 .f32) (ix2 R C) := by
  obtain ⟨e0, e1, -⟩ := idx_facts t
  show V c main_arg1 (((cfg1.win 0).blk t).view.emb (ix2 r j)) = _
  refine congrArg (V c main_arg1) (funext fun a => Fin.ext ?_)
  match a with
  | ⟨0, _⟩ => show win1_0.index t (0 : Fin 2) * 2048 + 1 * r.val = R.val; rw [e0, hR]; omega
  | ⟨1, _⟩ => show win1_0.index t (1 : Fin 2) * 1024 + 1 * j.val = C.val; rw [e1, hC]; omega

/-- The support rows the point loads: rows `1024 (t % 16) + j` of the resident matrix. -/
theorem iblk_sup (c : Dev nD) (t : Fin cfg1.N) (j : Fin 1024) (h : Fin 64) (M : Fin 16384)
    (hM : M.val = 1024 * (t.val % 16) + j.val) :
    (View.ld (iblk1 V c 1 t) (rSup (grid1.coords t)) : FVec Ideal S1024x64 .f32) (ix2 j h)
      = (V c main_v0 : FVec Ideal S16384x64 .f32) (ix2 M h) := by
  obtain ⟨-, -, e0, e1, -, -, -, -, -, -, o0, o1⟩ := idx_facts t
  show V c main_v0 (((cfg1.win 1).blk t).view.emb ((rSup (grid1.coords t)).idx (ix2 j h))) = _
  refine congrArg (V c main_v0) (funext fun a => Fin.ext ?_)
  match a with
  | ⟨0, _⟩ =>
    show win1_1.index t (0 : Fin 2) * 16384 + 1 * (k1_off1 (grid1.coords t) 0 + 1 * j.val) = M.val
    rw [e0, o0, hM]; omega
  | ⟨1, _⟩ =>
    show win1_1.index t (1 : Fin 2) * 64 + 1 * (k1_off1 (grid1.coords t) 1 + 1 * h.val) = h.val
    rw [e1, o1]; omega

/-- The degree block at point `t`: rows `2048 (t / 16) + r` of the degree column. -/
theorem iblk_deg (c : Dev nD) (t : Fin cfg1.N) (r : Fin 2048) (R : Fin 16384) (hR : R.val = 2048 * (t.val / 16) + r.val) :
    (iblk1 V c 2 t : FVec Ideal S2048x1 .f32) (ix2 r (0 : Fin 1)) = (V c main_arg2 : FVec Ideal S16384x1 .f32) (ix2 R (0 : Fin 1)) := by
  obtain ⟨-, -, -, -, e0, e1, -⟩ := idx_facts t
  show V c main_arg2 (((cfg1.win 2).blk t).view.emb (ix2 r (0 : Fin 1))) = _
  refine congrArg (V c main_arg2) (funext fun a => Fin.ext ?_)
  match a with
  | ⟨0, _⟩ => show win1_2.index t (0 : Fin 2) * 2048 + 1 * r.val = R.val; rw [e0, hR]; omega
  | ⟨1, _⟩ => show win1_2.index t (1 : Fin 2) * 1 + 1 * 0 = 0; rw [e1]

/-- The bias row is the whole window. -/
theorem iblk_bias (c : Dev nD) (t : Fin cfg1.N) (h : Fin 64) :
    (iblk1 V c 3 t : FVec Ideal S1x64 .f32) (ix2 (0 : Fin 1) h) = (V c main_v1 : FVec Ideal S1x64 .f32) (ix2 (0 : Fin 1) h) := by
  obtain ⟨-, -, -, -, -, -, e0, e1, -⟩ := idx_facts t
  show V c main_v1 (((cfg1.win 3).blk t).view.emb (ix2 (0 : Fin 1) h)) = _
  refine congrArg (V c main_v1) (funext fun a => Fin.ext ?_)
  match a with
  | ⟨0, _⟩ => show win1_3.index t (0 : Fin 2) * 1 + 1 * 0 = 0; rw [e0]
  | ⟨1, _⟩ => show win1_3.index t (1 : Fin 2) * 64 + 1 * h.val = h.val; rw [e1]; omega

/-! ## The accumulator after each point -/

/-- The product summed at node `m`, for result row `n` and column `h`; zero past the last node. -/
def term (adj : FVec Ideal S16384x16384 .f32) (sup : FVec Ideal S16384x64 .f32) (n : Fin 16384) (h : Fin 64) : ℕ → EReal :=
  fun m => if hm : m < 16384 then adj (ix2 n ⟨m, hm⟩) * sup (ix2 ⟨m, hm⟩ h) else 0

/-- One point adds its run of 1024 nodes to the entry. -/
theorem step_apply (c : Dev nD) (t : Fin cfg1.N) (prev : FVec Ideal S2048x64 .f32) (r : Fin 2048) (h : Fin 64)
    (R : Fin 16384) (hR : R.val = 2048 * (t.val / 16) + r.val) :
    accStep V c t prev (ix2 r h)
      = prev (ix2 r h) + ∑ j : Fin 1024, term (V c main_arg1) (V c main_v0) R h (1024 * (t.val % 16) + j.val) := by
  unfold accStep
  refine (pay2_apply _ _ _ r h).trans (congrArg (prev (ix2 r h) + ·) (Finset.sum_congr rfl fun j _ => ?_))
  have hlt : 1024 * (t.val % 16) + j.val < 16384 := by have := j.isLt; omega
  unfold term
  rw [dif_pos hlt, iblk_adj V c t r j R ⟨_, hlt⟩ hR rfl, iblk_sup V c t j h ⟨_, hlt⟩ rfl]

/-- THE INVARIANT: after point `n` (row tile `n / 16`, reduction tile `n % 16`) the accumulator's entry (r, h) is the
    sum over the first `n % 16 + 1` runs of 1024 nodes. -/
theorem acc_inv (c : Dev nD) : ∀ (n : ℕ) (hn : n < cfg1.N) (r : Fin 2048) (h : Fin 64) (R : Fin 16384),
    R.val = 2048 * (n / 16) + r.val →
    accAt V c n hn (ix2 r h)
      = ∑ k ∈ Finset.range (n % 16 + 1), ∑ j : Fin 1024, term (V c main_arg1) (V c main_v0) R h (1024 * k + j.val) := by
  intro n
  induction n with
  | zero =>
    intro hn r h R hR
    refine (congrFun (accAt_reset V c ⟨0, hn⟩ rfl) (ix2 r h)).trans ?_
    rw [step_apply V c ⟨0, hn⟩ _ r h R hR, pay1_apply, zero_add]
    show _ = ∑ k ∈ Finset.range 1, _
    rw [Finset.sum_range_one]
    rfl
  | succ n ih =>
    intro hn r h R hR
    by_cases h0 : (n + 1) % 16 = 0
    · refine (congrFun (accAt_reset V c ⟨n + 1, hn⟩ h0) (ix2 r h)).trans ?_
      rw [step_apply V c ⟨n + 1, hn⟩ _ r h R hR, pay1_apply, zero_add]
      show ∑ j : Fin 1024, term _ _ R h (1024 * ((n + 1) % 16) + j.val) = _
      rw [h0, Finset.sum_range_one]
    · refine (congrFun (accAt_cont V c ⟨n + 1, hn⟩ h0) (ix2 r h)).trans ?_
      rw [step_apply V c ⟨n + 1, hn⟩ _ r h R hR]
      show accAt V c n _ (ix2 r h) + ∑ j : Fin 1024, term _ _ R h (1024 * ((n + 1) % 16) + j.val) = _
      have hq : (n + 1) / 16 = n / 16 := by omega
      have hm : (n + 1) % 16 = n % 16 + 1 := by omega
      rw [ih (Nat.lt_of_succ_lt hn) r h R (by rw [hR, hq]), hm, sum_runs_succ _ (n % 16 + 1)]

/-! ## What a row tile's last point stores -/

/-- The sum of the products over all nodes is the sum of `term` over the positions below 16384. -/
theorem sum_term (adj : FVec Ideal S16384x16384 .f32) (sup : FVec Ideal S16384x64 .f32) (n : Fin 16384) (h : Fin 64) :
    (∑ m : Fin 16384, term adj sup n h m.val) = ∑ m : Fin 16384, adj (ix2 n m) * sup (ix2 m h) :=
  Finset.sum_congr rfl fun m _ => dif_pos m.isLt

/-- At a row tile's last point the block stored is the result's: entry (r, h) is the aggregation at row
    `2048 (t / 16) + r`, column `h`. -/
theorem out_apply (c : Dev nD) (t : Fin cfg1.N) (h15 : t.val % 16 = 15) (r : Fin 2048) (h : Fin 64)
    (R : Fin 16384) (hR : R.val = 2048 * (t.val / 16) + r.val) :
    outAt V c t (ix2 r h) = outG1 (V c main_arg1) (V c main_v0) (V c main_arg2) (V c main_v1) (ix2 R h) := by
  unfold outAt
  refine (pay3_apply _ _ _ r h).trans ?_
  rw [acc_inv V c t.val t.isLt r h R hR, h15, sum_runs_all, sum_term, iblk_deg V c t r R hR, iblk_bias V c t h]
  rfl

/-! ## From the blocks to the array -/

/-- What a flushing point writes back is its block of the result. -/
theorem flushed_eq (c : Dev nD) (t : Fin cfg1.N) (hf : (cfg1.win 4).flush t = true) :
    (dat1 V c).flushed 4 t
      = ((cfg1.win 4).blk t).view.read (Elt Ideal) (outG1 (V c main_arg1) (V c main_v0) (V c main_arg2) (V c main_v1)) := by
  have h15 : t.val % 16 = 15 := (flush1_4 t).mp hf
  obtain ⟨-, -, -, -, -, -, -, -, e0, e1, -⟩ := idx_facts t
  show (cfg1.win 4).cut (grid1.coords t) ((dat1 V c).after 4 t) = _
  rw [after1_4]
  funext j
  obtain ⟨p, q, rfl⟩ : ∃ (p : Fin 2048) (q : Fin 64), j = ix2 p q := ⟨j 0, j 1, eq_ix2 j⟩
  have hN : cfg1.N = 128 := N_1
  have hlt : 2048 * (t.val / 16) + p.val < 16384 := by have := t.isLt; have := p.isLt; omega
  show outAt V c t (ix2 p q) = outG1 _ _ _ _ (((cfg1.win 4).blk t).view.emb (ix2 p q))
  have hemb : ((cfg1.win 4).blk t).view.emb (ix2 p q) = ix2 (⟨2048 * (t.val / 16) + p.val, hlt⟩ : Fin 16384) q := by
    funext a; apply Fin.ext
    match a with
    | ⟨0, _⟩ => show win1_4.index t (0 : Fin 2) * 2048 + 1 * p.val = 2048 * (t.val / 16) + p.val; rw [e0]; omega
    | ⟨1, _⟩ => show win1_4.index t (1 : Fin 2) * 64 + 1 * q.val = q.val; rw [e1]; omega
  rw [hemb]
  exact out_apply V c t h15 p q ⟨_, hlt⟩ rfl

/-- An index of the result array is in point `t`'s block iff each coordinate is in the block's range on its axis. -/
theorem mem_blk (t : Fin cfg1.N) (i : S16384x64.Idx) :
    i ∈ ((cfg1.win 4).blk t).view.set ↔ ∀ a : Fin 2, win1_4.index t a * S2048x64.size a ≤ (i a).val ∧ (i a).val < win1_4.index t a * S2048x64.size a + S2048x64.size a := by
  show i ∈ ((View.whole main_v2).slice (win1_4.rect t)).set ↔ _
  rw [View.set_slice_whole, Rect.mem_set_unit]
  exact Iff.rfl

/-- Every row of the result lies in the block of its row tile's last point, `16 (n / 2048) + 15`. -/
theorem cover (i : S16384x64.Idx) :
    ∃ t : Fin cfg1.N, (cfg1.win 4).flush t = true ∧ i ∈ ((cfg1.win 4).blk t).view.set := by
  have hi0 : (i 0).val < 16384 := (i 0).isLt
  have hi1 : (i 1).val < 64 := (i 1).isLt
  have hN : cfg1.N = 128 := N_1
  have ht : 16 * ((i 0).val / 2048) + 15 < cfg1.N := by rw [hN]; omega
  have hv : (⟨16 * ((i 0).val / 2048) + 15, ht⟩ : Fin cfg1.N).val = 16 * ((i 0).val / 2048) + 15 := rfl
  obtain ⟨-, -, -, -, -, -, -, -, e0, e1, -⟩ := idx_facts ⟨16 * ((i 0).val / 2048) + 15, ht⟩
  rw [hv] at e0
  refine ⟨⟨16 * ((i 0).val / 2048) + 15, ht⟩, (flush1_4 _).mpr (by rw [hv]; omega), ?_⟩
  rw [mem_blk]
  intro a
  match a with
  | ⟨0, _⟩ =>
    show win1_4.index ⟨16 * ((i 0).val / 2048) + 15, ht⟩ (0 : Fin 2) * 2048 ≤ (i 0).val ∧ (i 0).val < win1_4.index ⟨16 * ((i 0).val / 2048) + 15, ht⟩ (0 : Fin 2) * 2048 + 2048
    rw [e0]; omega
  | ⟨1, _⟩ =>
    show win1_4.index ⟨16 * ((i 0).val / 2048) + 15, ht⟩ (1 : Fin 2) * 64 ≤ (i 1).val ∧ (i 1).val < win1_4.index ⟨16 * ((i 0).val / 2048) + 15, ht⟩ (1 : Fin 2) * 64 + 64
    rw [e1]; omega

/-- THE RESULT after the second call: `outG1` of the adjacency, support, degree and bias-row arrays as the region
    finds them. -/
theorem aggregate_final (c : Dev nD) :
    (dat1 (F := Ideal) V c).arrAt 4 cfg1.N = outG1 (V c main_arg1) (V c main_v0) (V c main_arg2) (V c main_v1) :=
  (dat1 V c).arrAt_eq_of_cover 4 (outG1 (V c main_arg1) (V c main_v0) (V c main_arg2) (V c main_v1))
    (fun t hf => flushed_eq V c t hf) cover

end Cert.KernelIdeal.Gcn

end
-- ==== Proof.KernelValue.lean ====
/-
  The kernel program's result, over the extended reals, is the layer `gcnG` of its five argument arrays: the
  aggregation call leaves `outG1` of the adjacency and degree arrays as launched, of the support matrix the
  support call left (`supG` of the feature and weight arrays as launched) and of the bias row the host reshaped
  from the bias.
-/
import proofs.«106753_j66322884985284_2_alg».proof.Proof.Launch
import proofs.«106753_j66322884985284_2_alg».proof.Proof.SupportValue
import proofs.«106753_j66322884985284_2_alg».proof.Proof.AggregateValue
import Idealize.ShloMosaic.Lib.StableHlo.Run

set_option maxRecDepth 16384

noncomputable section

namespace Cert.KernelIdeal.Gcn

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.GcnSpec

variable (m : (ℓ : Loc nD τ sig) → Buf (Elt Ideal) ℓ) (ρ : Dev nD → PrngReg)

/-- What the host's reshape writes: the bias as one row. -/
theorem reshape_val (W : Valuation τ sig (Elt Ideal)) :
    StableHlo.after (hostOps1 (F := Ideal)) W (Proc.devRef .tc main_v1)
      = shapeCast S1x64 (W (Proc.devRef .tc main_arg4)) shapeCasts_S64_S1x64 := by
  after_results
  rfl

/-- The bias row the aggregation call finds is the bias as launched, reshaped to one row. -/
theorem V2_v1 (c : Dev nD) :
    V2 m c main_v1 = shapeCast S1x64 (m ((c : Thread nD τ).loc main_arg4)) shapeCasts_S64_S1x64 :=
  (reshape_val (W1 m c)).trans
    (congrArg (fun x => shapeCast S1x64 x shapeCasts_S64_S1x64) (W1_of_ne m c main_arg4 (by decide)))

/-- The result array after the run is the layer of the launch contents. -/
theorem result_eq (c : Dev nD) :
    W3 m c (Proc.devRef .tc main_v2)
      = gcnG (m ((c : Thread nD τ).loc main_arg0)) (m ((c : Thread nD τ).loc main_arg1)) (m ((c : Thread nD τ).loc main_arg2))
          (m ((c : Thread nD τ).loc main_arg3)) (m ((c : Thread nD τ).loc main_arg4)) := by
  rw [W3_result, aggregate_final (V2 m) c, V2_arg1, V2_arg2, V2_v0, V2_v1, support_final (V0 m) c]
  exact outG1_reshape _ _ _ _ _

/-- Every weakly fair execution of the kernel program ends with its result at the layer `gcnG` of the argument
    arrays, and the arguments unchanged. -/
theorem run_G :
    θ_run (defs (F := Ideal)) (onTc (τ := τ) (main (F := Ideal))) ⟨m, fun _ => 0, ρ⟩ (fun r => ∀ c : Dev nD,
      r.2.mem ((c.tc : Thread nD τ).loc main_v2)
          = gcnG (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v2 (by decide))).trans (result_eq m c),
     (h c _ (mem_uc main_arg0 (by decide))).trans (W3_arg0 m c),
     (h c _ (mem_uc main_arg1 (by decide))).trans (W3_arg1 m c),
     (h c _ (mem_uc main_arg2 (by decide))).trans (W3_arg2 m c),
     (h c _ (mem_uc main_arg3 (by decide))).trans (W3_arg3 m c),
     (h c _ (mem_uc main_arg4 (by decide))).trans (W3_arg4 m c)⟩) (run_all m ρ)

end Cert.KernelIdeal.Gcn

end
-- ==== Proof.RefValue.lean ====
/-
  The reference program's result, over the extended reals, is the layer `gcnG` of its five argument arrays.
-/
import proofs.«106753_j66322884985284_2_alg».proof.Defs
import proofs.«106753_j66322884985284_2_alg».proof.Proof.Gen.ReferenceIdeal.Run
import proofs.«106753_j66322884985284_2_alg».proof.Proof.Gen.ReferenceIdeal.Read
import proofs.«106753_j66322884985284_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

noncomputable section

namespace Cert.ReferenceIdeal.RefValue

open Idealize.ShloMosaic Idealize.ShloMosaic.TcCoe Idealize.SL.Sem Idealize.ShloMosaic.ValueIdx
open Cert.ReferenceIdeal Cert.GcnSpec

/-! ## The operations' index maps are the coordinate constructors -/

/-- The degree column is read at `(row, 0)`. -/
theorem idx_v2 (i : S16384x64.Idx) : Read.idx_main_v2 i = ix2 (i 0) 0 :=
  funext fun a => Fin.ext (by match a with | ⟨0, _⟩ => rfl | ⟨1, _⟩ => rfl)

/-- The adjacency is read at `(row, k)`. -/
theorem lidx_v1 (i : S16384x64.Idx) (k : Fin 16384) : Read.lidx_main_v1 i k = ix2 (i 0) k :=
  funext fun a => Fin.ext (by match a with | ⟨0, _⟩ => rfl | ⟨1, _⟩ => rfl)

/-- The features are read at `(row, f)`. -/
theorem lidx_v0 (j : S16384x64.Idx) (f : Fin 128) : Read.lidx_main_v0 j f = ix2 (j 0) f :=
  funext fun a => Fin.ext (by match a with | ⟨0, _⟩ => rfl | ⟨1, _⟩ => rfl)

/-- The weights are read at `(f, column)`. -/
theorem ridx_v0 (j : S16384x64.Idx) (f : Fin 128) : Read.ridx_main_v0 j f = ix2 f (j 1) :=
  funext fun a => Fin.ext (by match a with | ⟨0, _⟩ => rfl | ⟨1, _⟩ => rfl)

/-- The bias, broadcast to a row and then to every row, is read at the column. -/
theorem idx_v45 (i : S16384x64.Idx) : Read.idx_main_v4 (Read.idx_main_v5 i) = ix1 (i 1) :=
  funext fun a => Fin.ext (by match a with | ⟨0, _⟩ => rfl)

/-! ## The reference's term is the layer -/

/-- Index by index: the last operation is a maximum with the broadcast zero, of the sum of the broadcast bias and
    the product of the broadcast degree column with the aggregation, whose entry is a sum over the nodes of
    adjacency times support, the support's entry a sum over the features of feature times weight. -/
theorem result_eq (x0 : FVec Ideal ⟨2, ![16384, 128]⟩ .f32) (x1 : FVec Ideal ⟨2, ![16384, 16384]⟩ .f32)
    (x2 : FVec Ideal ⟨2, ![16384, 1]⟩ .f32) (x3 : FVec Ideal ⟨2, ![128, 64]⟩ .f32) (x4 : FVec Ideal ⟨1, ![64]⟩ .f32) :
    Read.val_main_v7 (F := Ideal) x0 x1 x2 x3 x4 = gcnG x0 x1 x2 x3 x4 := by
  funext i
  rw [Read.val_main_v7_apply, Read.val_main_v6_apply, Read.val_main_v3_apply, Read.val_main_v2_apply,
    Read.val_main_v1_apply, Read.val_main_v5_apply, Read.val_main_v4_apply, Read.val_main_call0_v0_apply,
    Read.val_main_call0_cst_apply]
  have h0 : ∀ k : Fin 16384, Read.val_main_v0 (F := Ideal) x0 x3 (Read.ridx_main_v1 i k)
      = ∑ f : Fin 128, x0 (ix2 k f) * x3 (ix2 f (i 1)) := fun k => by
    rw [Read.val_main_v0_apply]
    simp only [lidx_v0, ridx_v0]
    rfl
  simp only [h0, idx_v2, lidx_v1, idx_v45, Ideal.mulf_def, Ideal.addf_def, Ideal.maximumf_def, Ideal.ofBits_def,
    gcnG, outG, supG]
  rfl

/-- Every weakly fair execution of the reference ends with its result at the layer `gcnG` of the argument
    arrays, and the arguments unchanged. -/
theorem run_G (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v7)
          = gcnG (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run (Cert.ReferenceIdeal.defs (F := Ideal)) _ _).mono (fun _ h c => ⟨(h c).1.trans ?_, (h c).2⟩)
    (Cert.ReferenceIdeal.Value.run (F := Ideal) m ρ)
  exact (Read.val_main_v7_eq _ _ _ _ _).trans (result_eq _ _ _ _ _)

end Cert.ReferenceIdeal.RefValue

end
-- ==== Proof.lean ====
/-
  A graph-convolution layer in two kernel calls, against its reference.

  The kernel program computes the support matrix `x · W` in a first call (eight row blocks), reshapes the bias to a
  row on the host, and in a second call streams the adjacency matrix in 2048×1024 tiles, accumulating
  `adjacency tile · support rows` over the 16 tiles of a row block into an accumulator it keeps between grid
  points, and writes `max (degree · accumulator + bias) 0` at the row block's last tile. The reference computes
  `max (degree · (adjacency · (x · W)) + bias) 0` with two whole matrix products.

  Over the extended reals the two agree entry by entry: a bf16 round trip is the identity, a matrix product into a
  zero accumulator is the plain sum of products, and the sum over the 16384 nodes taken as 16 consecutive runs of
  1024 is the same sum, by the commutative-monoid laws of extended-real addition alone — no finiteness of the
  inputs is used. Both results are the function `gcnG` of the five arguments.

  The frames: each program runs to the end from any memory with zero counters, faults nowhere and leaves its five
  arguments as launched. For the kernel program (at the word level and idealized alike) this is the run of its
  three segments — support call, reshape, aggregation call — each call's body obligation discharged at every grid
  point, the aggregation's with an invariant that names the accumulator's contents after each point. The idealized
  program's text is the word-level program's (no rewrite was applied), so `preserves` is trivial.
-/
import proofs.«106753_j66322884985284_2_alg».proof.Defs
import proofs.«106753_j66322884985284_2_alg».proof.Proof.Gen.Kernel
import proofs.«106753_j66322884985284_2_alg».proof.Proof.Gen.KernelIdeal
import proofs.«106753_j66322884985284_2_alg».proof.Proof.Gen.ReferenceIdeal
import proofs.«106753_j66322884985284_2_alg».proof.Proof.Gen.Pre_finite_inputs
import proofs.«106753_j66322884985284_2_alg».proof.Proof.BitsLaunch
import proofs.«106753_j66322884985284_2_alg».proof.Proof.KernelValue
import proofs.«106753_j66322884985284_2_alg».proof.Proof.RefValue
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gcn.frame m ρ

theorem frame_kernelIdeal : @Cert.frame_KernelIdeal Cert.KernelIdeal.Gen.facts Cert.Pre_finite_inputs.Gen.facts :=
  fun m ρ _ => Cert.KernelIdeal.Gcn.frame m ρ

theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RefValue.run_G m ρ)

/-- Both programs end at the layer `gcnG` of arguments that agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Gcn.run_G m ρ, ?_⟩
  refine (θ_run Cert.ReferenceIdeal.defs _ _).mono (fun _ h c => ⟨(h c).1.trans ?_, (h c).2⟩)
    (Cert.ReferenceIdeal.RefValue.run_G m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
